-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096x1 : Shape := ⟨2, ![4096, 1]⟩
abbrev S1024x512 : Shape := ⟨2, ![1024, 512]⟩
abbrev S1024x1 : Shape := ⟨2, ![1024, 1]⟩
abbrev S1024 : Shape := ⟨1, ![1024]⟩
abbrev S1x4096 : Shape := ⟨2, ![1, 4096]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S_ : Shape := ⟨0, ![]⟩

abbrev nBuf : Space → Nat
  | .hbm => 12
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S1x4096, .f32⟩
  | .hbm, ⟨6, _⟩ => ⟨S1x4096, .f32⟩
  | .hbm, ⟨7, _⟩ => ⟨S4096x512, .bf16⟩
  | .hbm, ⟨8, _⟩ => ⟨S4096x512, .bf16⟩
  | .hbm, ⟨9, _⟩ => ⟨S4096x1, .f32⟩
  | .hbm, ⟨10, _⟩ => ⟨S_, .f32⟩
  | .hbm, ⟨11, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1, .f32⟩
  | .local _ .vmem, ⟨15, _⟩ => ⟨S512x1, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_21 : BitVec 32 := 0#32
  let v49 : BitVec 1 := Scalar.cmpi .ne v48 c0_i32_21
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  transposes_S4096x1_S1x4096_1_0 : S4096x1.Transposes [1, 0] S1x4096
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reducesTo_S4096x1_S_d0_1 : S4096x1.ReducesTo [0, 1] S_
  h_S_ : 0 < S_.numel
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .bf16 = 32 ∨ (Rect.block (s := S4096x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .bf16 = 32 ∨ (Rect.block (s := S4096x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S4096x4096, .f32⟩
  | .hbm, ⟨14, _⟩ => ⟨S4096x1, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x512_S4096x512_S4096x4096_1_1_0_0_n_n_wf : DotDims.WF S4096x512 S4096x512 S4096x4096 [1] [1] [0] [0] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.KData0.lean ====
/-
  The first kernel region (the row pass): its proof data.

  The region walks the 4096 rows in 4 blocks of 1024. At block `t` the body reads the sketch block and the photo
  block and stores three columns of 1024 entries: the sketch rows' squared norms, the photo rows' squared
  norms, and the distance between the aligned rows. Each output block is one store covering the whole block,
  so what a block holds after the body is the store's value read back.
-/
import proofs.«115998_j11227044511928_1_alg».proof.Proof.Gen.Kernel.Launch
import proofs.«115998_j11227044511928_1_alg».proof.Proof.Gen.Kernel.Skeleton
import proofs.«115998_j11227044511928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 × 512 input block, as the rectangle the body loads through. -/
abbrev rIn0 : Rect S1024x512 := Rect.unit (s := S1024x512) ![0, 0] S1024x512.size inb_S1024x512_S1024x512_0_0
/-- The whole 1024 × 1 output block, as the rectangle the body stores through. -/
abbrev rOut0 : Rect S1024x1 := Rect.unit (s := S1024x1) ![0, 0] S1024x1.size inb_S1024x1_S1024x1_0_0

/-! ## What the body leaves in each output block -/

/-- The squared norms of the sketch block's rows. -/
def out0_2 (x0 : Vec F S1024x512 .f32) : Vec F S1024x1 .f32 :=
  View.canon [⟨rOut0, k0_pay1 (View.ld x0 rIn0)⟩]
/-- The squared norms of the photo block's rows. -/
def out0_3 (x1 : Vec F S1024x512 .f32) : Vec F S1024x1 .f32 :=
  View.canon [⟨rOut0, k0_pay2 (View.ld x1 rIn0)⟩]
/-- The distances between the aligned rows of the two blocks. -/
def out0_4 (x0 x1 : Vec F S1024x512 .f32) : Vec F S1024x1 .f32 :=
  View.canon [⟨rOut0, k0_pay3 (View.ld x0 rIn0) (View.ld x1 rIn0)⟩]

/-! ## The proof data -/

/-- The row pass on core `c`: the arrays as the region finds them; after the body each input block as it was and
    each output block at its stored value; nothing kept between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]

end Cert.Kernel.Tri

end
-- ==== Proof.KBody0.lean ====
/-
  The first kernel region (the row pass): its body obligation.

  At every block of 1024 rows the body reads the sketch block and the photo block and overwrites three columns
  of 1024 entries. Each column is filled by ONE store through the rectangle of the whole block, so the stores of
  a column cover it and what the column holds afterwards is the store's value read back, whatever it held
  before (the body reads each column before it overwrites it, and uses nothing of what it read). The two input
  blocks are left as they were. Hence, handed the two input blocks and three columns at anything, the body
  returns the two input blocks and the three columns at the squared norms of the sketch rows, the squared norms
  of the photo rows and the distances between the aligned rows: the contents the proof data name.
-/
import proofs.«115998_j11227044511928_1_alg».proof.Proof.Gen.Kernel.Launch
import proofs.«115998_j11227044511928_1_alg».proof.Proof.Gen.Kernel.Skeleton
import proofs.«115998_j11227044511928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115998_j11227044511928_1_alg».proof.Proof.KData0

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input blocks as the body finds them -/

/-- The sketch window's current buffer holds the sketch block of the point, whether or not the block was
    fetched at this point: the window is an input, never idle and never cut, and the body leaves its block in
    place, so an unfetched buffer still holds the block of an unmoved index. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The photo window's current buffer holds the photo block of the point, for the same reasons. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## One store fills a column -/

/-- A single piece through the rectangle of the whole 1024 × 1 block tiles the block (one tile, the block
    itself), so every entry of the column lies under it. The three output columns share this shape. -/
theorem coverOut0 (p : Vec F S1024x1 .f32) (y : S1024x1.Idx) :
    ∃ pc ∈ ([⟨rOut0, p⟩] : List (View.Piece (Elt F) S1024x1 .f32)), y ∈ pc.1.set :=
  View.cover_of_tiled [⟨rOut0, p⟩] S1024x1.size (by rfl) y

/-! ## The body on whole buffers -/

set_option maxHeartbeats 1000000 in
/-- The body, on whole buffers: the two input buffers read `x0` (sketch block) and `x1` (photo block), the three
    column buffers hold anything. It runs to the continuation with the inputs as they were and the columns at
    `out0_2 x0`, `out0_3 x1`, `out0_4 x0 x1`: each column's buffer after its one covering store reads as the
    store's value, whatever was there before. -/
theorem sound_kernel0 (c : Dev nD) (E : Set ℕ) (i : grid0.Coords)
    (a1 : Memref sig .tc .vmem S1024x512 .f32) (h1 : a1.IsWhole) (a2 : Memref sig .tc .vmem S1024x512 .f32) (h2 : a2.IsWhole)
    (a3 : Memref sig .tc .vmem S1024x1 .f32) (h3 : a3.IsWhole) (a4 : Memref sig .tc .vmem S1024x1 .f32) (h4 : a4.IsWhole)
    (a5 : Memref sig .tc .vmem S1024x1 .f32) (h5 : a5.IsWhole)
    (x0 x1 : Vec F S1024x512 .f32) (K : PUnit → sProp 𝕄) :
    iprop(owns (c : Thread nD τ) a1 fullShare x0 ∗ owns (c : Thread nD τ) a2 fullShare x1
        ∗ (∃ d, owns (c : Thread nD τ) a3 fullShare d) ∗ (∃ d, owns (c : Thread nD τ) a4 fullShare d)
        ∗ (∃ d, owns (c : Thread nD τ) a5 fullShare d)
        ∗ (iprop(owns (c : Thread nD τ) a1 fullShare x0 ∗ owns (c : Thread nD τ) a2 fullShare x1
            ∗ owns (c : Thread nD τ) a3 fullShare (out0_2 x0) ∗ owns (c : Thread nD τ) a4 fullShare (out0_3 x1)
            ∗ owns (c : Thread nD τ) a5 fullShare (out0_4 x0 x1)) -∗ K ⟨⟩))
      ⊢ wp frame (wpE (defs₀ (F := F)) Variants.none c none) E (cc0__prep_kernel i a1 h1 a2 h2 a3 h3 a4 h4 a5 h5) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverOut0 _)
  isplitl [H3]
  · iexists _; isplitr
    swap; · iexact H3
    ipureintro
    exact View.read_writes_eq_canon _ _ _ (coverOut0 _)
  iexists _; isplitr
  swap; · iexact H4
  ipureintro
  exact View.read_writes_eq_canon _ _ _ (coverOut0 _)

/-! ## The body obligation, at a generic point -/

/-- What the body is handed at point `t`: the invariant, what the core owes, and the five current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two input buffers hold their blocks, the columns hold something, so the body's run
    on whole buffers applies; the invariant and what the core owes are the same before and after, and pass by
    unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the row pass, at every point. -/
theorem body_obligation0 (c : Dev nD) : BodyObligation (dat0 (F := F) V c) (defs₀ (F := F)) Variants.none () Set.univ := fun t => by
  rw [bigSep_W0, bigSep_W0]
  exact sound_body0 V c t

end Cert.Kernel.Tri

end
-- ==== Proof.KData1.lean ====
/-
  The second kernel region (the pair pass): its proof data.

  The region walks an 8 × 8 grid of 512 × 512 tiles of the pair matrix, the row tile `it` outermost and the column tile
  `jt` innermost (point `t = 8·it + jt`). At a point the body forms the tile of triplet terms from the photo block,
  the sketch block, the photo norms' column block and the sketch norms' and aligned distances' row blocks, hinges
  it, sums each row of the tile, and adds that column of 512 partial sums into a scratch column it keeps between
  points: reset to zero at `jt = 0`, written to the output block at `jt = 7`. So after point `t` the scratch holds
  the row sums over the column tiles `0 … jt` of row tile `it`.
-/
import proofs.«115998_j11227044511928_1_alg».proof.Proof.Gen.Kernel.Launch
import proofs.«115998_j11227044511928_1_alg».proof.Proof.Gen.Kernel.Skeleton
import proofs.«115998_j11227044511928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512 × 512 block, the whole 512 × 1 column block and the whole 1 × 512 row block, as the rectangles the
    body loads and stores through. -/
abbrev rT : Rect S512x512 := Rect.unit (s := S512x512) ![0, 0] S512x512.size inb_S512x512_S512x512_0_0
abbrev rC : Rect S512x1 := Rect.unit (s := S512x1) ![0, 0] S512x1.size inb_S512x1_S512x1_0_0
abbrev rR : Rect S1x512 := Rect.unit (s := S1x512) ![0, 0] S1x512.size inb_S1x512_S1x512_0_0

/-- The scratch column the kernel keeps between points. -/
abbrev scM1 : Memref sig .tc .vmem S512x1 .f32 := Memref.whole cc1_scratch0

/-! ## The accumulator, point by point -/

/-- The tile of triplet terms (diagonal zeroed, not yet hinged) at point `t`, from the five input blocks. -/
def tile1 (c : Dev nD) (t : Fin cfg1.N) : FVec F S512x512 .f32 :=
  k1_pay3 (grid1.coords t) (iblk1 V c 0 t) (iblk1 V c 1 t) (iblk1 V c 2 t) (iblk1 V c 3 t) (iblk1 V c 4 t)

/-- What the scratch column holds after the body at position `n`: at the first column tile of a row tile the
    tile's hinged row sums added to zero, otherwise added to what the point before left. -/
def accAt1 (c : Dev nD) : (n : ℕ) → n < cfg1.N → Vec F S512x1 .f32
  | 0, hn => k1_pay1 (tile1 V c ⟨0, hn⟩) (k1_pay2 (F := F))
  | n + 1, hn =>
    if (n + 1) % 8 = 0 then k1_pay1 (tile1 V c ⟨n + 1, hn⟩) (k1_pay2 (F := F))
    else k1_pay1 (tile1 V c ⟨n + 1, hn⟩) (accAt1 c n (Nat.lt_of_succ_lt hn))

theorem accAt1_reset (c : Dev nD) (t : Fin cfg1.N) (h : t.val % 8 = 0) :
    accAt1 V c t.val t.isLt = k1_pay1 (tile1 V c t) (k1_pay2 (F := F)) := by
  obtain ⟨n, hn⟩ := t
  cases n with
  | zero => rfl
  | succ n => exact if_pos h

theorem accAt1_step (c : Dev nD) (t : Fin cfg1.N) (h : ¬t.val % 8 = 0) :
    accAt1 V c t.val t.isLt = k1_pay1 (tile1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The core's scoped buffers other than this region's staging buffers and its scratch column, each whole at some
    contents: the body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- Before position `n`: before the first point every scoped buffer at anything; afterwards the scratch column at
    what the point before left, the other scoped buffers at anything, the generator register at some state. -/
def PhiS (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM1 fullShare (accAt1 V c n hn) ∗ (∃ r, prngReg c r)) := rfl

theorem PhiS_pos (c : Dev nD) (n : ℕ) (h : n ≤ cfg1.N) (hz : n ≠ 0) :
    PhiS V c n h = iprop(rest1 (F := F) c ∗ owns (c : Thread nD τ) scM1 fullShare (accAt1 V c (n - 1) (by omega)) ∗ (∃ r, prngReg c r)) := by
  cases n with
  | zero => exact absurd rfl hz
  | succ n => rfl

/-! ## The proof data -/

/-- The pair pass on core `c`: the arrays as the region finds them; after the body each input block as it was and
    the output block at the accumulator (stored there at the last column tile; at the other points the window is
    idle and this value is not consulted); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accAt1 V c t.val t.isLt := by dsimp only [dat1]

theorem Phi1_castSucc (c : Dev nD) (t : Fin cfg1.N) :
    (dat1 V c).Φ t.castSucc = PhiS V c t.val (Nat.le_of_lt t.isLt) := by
  dsimp only [dat1]; simp only [Fin.coe_castSucc]

end Cert.Kernel.Tri

end
-- ==== Proof.KBody1.lean ====
/-
  The second kernel region (the pair pass): what the body does at a grid point, and that this is what the region's
  proof data says.

  The body branches twice on the column-tile coordinate `jt` of the point `t = 8·it + jt`: at `jt = 0` it first
  zeroes the scratch column; at `jt = 7` it finally copies the scratch column into the output block. In between, at
  every point, it forms the 512 × 512 tile of triplet terms from the five input blocks, hinges it, sums its rows, and
  adds that column of partial sums into the scratch column. So there are three control cases — `t ≡ 0`, `t ≡ 7`,
  neither (mod 8) — and in each the scratch column ends at the tile's hinged row sums added to what it held (to zero
  in the first case). The output block is idle off the last column tile: there it is handed back as it was found and
  is not written back to its array.
-/
import proofs.«115998_j11227044511928_1_alg».proof.Proof.Gen.Kernel.Launch
import proofs.«115998_j11227044511928_1_alg».proof.Proof.Gen.Kernel.Skeleton
import proofs.«115998_j11227044511928_1_alg».proof.Proof.Gen.Kernel.Points
import proofs.«115998_j11227044511928_1_alg».proof.Proof.KData1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two branch conditions over the grid -/

/-- The body's first branch: the column tile is the first of its row tile (the scratch column is reset). -/
abbrev cond1_0 (i : grid1.Coords) : Prop :=
  (Scalar.cmpi .ne (Scalar.extui (Scalar.cmpi .eq (BitVec.ofNat 32 (i 1).val) 0#32)) 0#32) = 1#1
/-- It holds exactly at the points `t ≡ 0 (mod 8)`. -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second branch: the column tile is the last of its row tile (the scratch column is stored out). -/
abbrev cond1_1 (i : grid1.Coords) : Prop := k1_cond2 i = 1#1
/-- It holds exactly at the points `t ≡ 7 (mod 8)`. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where a window is idle -/

/-- The five input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column tile the output window is idle, and its block is not written back there. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column tile it is live. -/
theorem liveAt1_5 : ∀ t : Fin cfg1.N, cond1_1 (grid1.coords t) → cfg1.idle 5 (grid1.coords t) = false := by decide +kernel

/-! ## The class invariant, opened -/

/-- The class invariant is the scoped buffers the body never touches, the scratch column at some contents, and the
    generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; try rfl

/-- Opened towards the invariant between points: the untouched buffers, the scratch column at some contents, the
    generator register. -/
theorem PhiA1_open (c : Dev nD) :
    (Pipeline.ΦA spec1 c : sProp 𝕄) ⊢ iprop(rest1 (F := F) c ∗ (∃ d, owns (c : Thread nD τ) scM1 fullShare d) ∗ (∃ r, prngReg c r)) := by
  rw [PhiA1_eq]; unfold rest1
  iintro ⟨⟨H1, H2, H3, H4, H5, H6, H7, H8, H9, H10, HS⟩, Hg⟩
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HS]; · iexact HS
  iexact Hg

/-- And closed again. -/
theorem PhiA1_close (c : Dev nD) :
    iprop(rest1 (F := F) c ∗ (∃ d, owns (c : Thread nD τ) scM1 fullShare d) ∗ (∃ r, prngReg c r)) ⊢ (Pipeline.ΦA spec1 c : sProp 𝕄) := by
  rw [PhiA1_eq]; unfold rest1
  iintro ⟨⟨H1, H2, H3, H4, H5, H6, H7, H8, H9, H10⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-! ## What the body finds in the input windows -/

/-- An input window's current staging buffer holds its block at every point, fetched there or not: where the
    pipeline does not fetch, the block index has not moved. For any proof data whose array is the region's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body on whole memrefs, case by case -/

/-- The zero offsets of a whole-block rectangle, as a constant function. -/
theorem zeroOffs1 : (![0, 0] : Fin 2 → Nat) = fun _ => 0 := funext fun a => by fin_cases a <;> rfl

/-- A buffer whose LAST store went through the whole-shape rectangle at zero offsets reads back that store's payload,
    whatever it held before and whatever the earlier stores were: the rectangle holds every index. -/
theorem read_last_whole_store1 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

set_option maxHeartbeats 1000000 in
/-- THE FIRST COLUMN TILE of a row tile. On whole memrefs — the five inputs at their contents, the output block at
    contents it hands back untouched, the scratch column at anything — the body zeroes the scratch column, forms the
    tile, and leaves in the scratch column the tile's hinged row sums added to zero. -/
theorem kernel1_reset (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S512x1 .f32) (harg7 : arg7.IsWhole)
    (arg8 : Memref sig .tc .vmem S512x1 .f32) (harg8 : arg8.IsWhole) (hc0 : cond1_0 i) (hc1 : ¬cond1_1 i)
    (x0 x1 : Vec F S512x512 .bf16) (x2 : Vec F S512x1 .f32) (x3 x4 : Vec F S1x512 .f32) (xi5 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay1 (k1_pay3 i x0 x1 x2 x3 x4) (k1_pay2 (F := F)))) -∗ K ⟨⟩))
      ⊢ wp frame (wpE (defs₀ (F := F)) Variants.none c none) E (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  sl_unfold_words
  rw [read_last_whole_store1 (S := S512x1) _ _ zeroOffs1]
  rw [View.readCov_unit_zero (S := S512x1) _ zeroOffs1]
  simp only [View.readAt_eq_ld, harg2.read_unread, harg3.read_unread, harg4.read_unread, harg5.read_unread, harg6.read_unread,
    View.ld_unit_zero (S := S512x512) zeroOffs1, View.ld_unit_zero (S := S512x1) zeroOffs1, View.ld_unit_zero (S := S1x512) zeroOffs1]

set_option maxHeartbeats 1000000 in
/-- A COLUMN TILE STRICTLY INSIDE a row tile. On whole memrefs — the five inputs at their contents, the output block
    at contents it hands back untouched, the scratch column at what the point before left — the body forms the tile
    and adds its hinged row sums into the scratch column. -/
theorem kernel1_mid (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S512x1 .f32) (harg7 : arg7.IsWhole)
    (arg8 : Memref sig .tc .vmem S512x1 .f32) (harg8 : arg8.IsWhole) (hc0 : ¬cond1_0 i) (hc1 : ¬cond1_1 i)
    (x0 x1 : Vec F S512x512 .bf16) (x2 : Vec F S512x1 .f32) (x3 x4 : Vec F S1x512 .f32) (xi5 xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay1 (k1_pay3 i x0 x1 x2 x3 x4) xs)) -∗ K ⟨⟩))
      ⊢ wp frame (wpE (defs₀ (F := F)) Variants.none c none) E (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_last_whole_store1 (S := S512x1) _ _ zeroOffs1]
  simp only [View.readAt_eq_ld, harg2.read_unread, harg3.read_unread, harg4.read_unread, harg5.read_unread, harg6.read_unread,
    harg8.read_unread, View.ld_unit_zero (S := S512x512) zeroOffs1, View.ld_unit_zero (S := S512x1) zeroOffs1, View.ld_unit_zero (S := S1x512) zeroOffs1]

set_option maxHeartbeats 1000000 in
/-- THE LAST COLUMN TILE of a row tile. On whole memrefs — the five inputs at their contents, the output block at
    anything, the scratch column at what the point before left — the body forms the tile, adds its hinged row sums
    into the scratch column, and stores the scratch column into the output block: both end at that sum. -/
theorem kernel1_last (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S512x1 .f32) (harg7 : arg7.IsWhole)
    (arg8 : Memref sig .tc .vmem S512x1 .f32) (harg8 : arg8.IsWhole) (hc0 : ¬cond1_0 i) (hc1 : cond1_1 i)
    (x0 x1 : Vec F S512x512 .bf16) (x2 : Vec F S512x1 .f32) (x3 x4 : Vec F S1x512 .f32) (xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k1_pay1 (k1_pay3 i x0 x1 x2 x3 x4) xs)
            ∗ owns (c : Thread nD τ) arg8 fullShare (k1_pay1 (k1_pay3 i x0 x1 x2 x3 x4) xs)) -∗ K ⟨⟩))
      ⊢ wp frame (wpE (defs₀ (F := F)) Variants.none c none) E (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [read_last_whole_store1 (S := S512x1) _ _ zeroOffs1]
    rw [View.readCov_unit_zero (S := S512x1) _ zeroOffs1]
    simp only [View.readAt_eq_ld, harg2.read_unread, harg3.read_unread, harg4.read_unread, harg5.read_unread, harg6.read_unread,
      harg8.read_unread, View.ld_unit_zero (S := S512x512) zeroOffs1, View.ld_unit_zero (S := S512x1) zeroOffs1, View.ld_unit_zero (S := S1x512) zeroOffs1]
  iexists _; isplitr
  swap; · iexact HS
  ipureintro
  sl_unfold_words
  rw [read_last_whole_store1 (S := S512x1) _ _ zeroOffs1]
  simp only [View.readAt_eq_ld, harg2.read_unread, harg3.read_unread, harg4.read_unread, harg5.read_unread, harg6.read_unread,
    harg8.read_unread, View.ld_unit_zero (S := S512x512) zeroOffs1, View.ld_unit_zero (S := S512x1) zeroOffs1, View.ld_unit_zero (S := S1x512) zeroOffs1]

/-! ## The body obligation -/

/-- Each window's current staging memref at point `t`, spelled as the pipeline passes it to the body, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)

/-- What the body is called with at point `t`: the invariant, what the core owes, and each window's current buffer
    at what it holds before the body. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it returns: the invariant at the next position, the same debt, and each window's buffer as the body leaves it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' buffers hold their blocks; the point's residue modulo 8 says which of the three
    control cases it is in. At the first column tile the invariant hands the scratch column at what the point before
    left (at anything before the very first point) and takes it back at the tile's hinged row sums added to zero; at
    the other tiles it takes it back at those sums added to what the point before left; the output block is handed
    back untouched except at the last column tile, where it ends at the scratch column's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · -- the first column tile of a row tile
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [accAt1_reset V c t h0]
    unfold tile1
    by_cases hz : t.val = 0
    · rw [Phi1_castSucc V c t, PhiS_zero V c _ _ hz]
      refine (sep_mono (PhiA1_open (F := F) c) .rfl).trans ?_
      iintro ⟨⟨HR, HS, Hg⟩, Ho, ⟨%d0, H0⟩, ⟨%d1, H1⟩, ⟨%d2, H2⟩, ⟨%d3, H3⟩, ⟨%d4, H4⟩, ⟨%d5, H5⟩⟩
      iapply (kernel1_reset c (grid1.coords t) (ms1_0 t) (hs1_0 t) (ms1_1 t) (hs1_1 t) (ms1_2 t) (hs1_2 t) (ms1_3 t) (hs1_3 t)
        (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi1_castSucc V c t, PhiS_pos V c _ _ hz]
      iintro ⟨⟨HR, HS, Hg⟩, Ho, ⟨%d0, H0⟩, ⟨%d1, H1⟩, ⟨%d2, H2⟩, ⟨%d3, H3⟩, ⟨%d4, H4⟩, ⟨%d5, H5⟩⟩
      iapply (kernel1_reset c (grid1.coords t) (ms1_0 t) (hs1_0 t) (ms1_1 t) (hs1_1 t) (ms1_2 t) (hs1_2 t) (ms1_3 t) (hs1_3 t)
        (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond1_0 (grid1.coords t) := fun h => h0 ((hcond1_0 t).mp h)
    by_cases h1 : t.val % 8 = 7
    · -- the last column tile of a row tile
      have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [accAt1_step V c t h0]
      unfold tile1
      rw [Phi1_castSucc V c t, PhiS_pos V c _ _ hz]
      iintro ⟨⟨HR, HS, Hg⟩, Ho, ⟨%d0, H0⟩, ⟨%d1, H1⟩, ⟨%d2, H2⟩, ⟨%d3, H3⟩, ⟨%d4, H4⟩, ⟨%d5, H5⟩⟩
      iapply (kernel1_last c (grid1.coords t) (ms1_0 t) (hs1_0 t) (ms1_1 t) (hs1_1 t) (ms1_2 t) (hs1_2 t) (ms1_3 t) (hs1_3 t)
        (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a column tile strictly inside a row tile
      have hc1 : ¬cond1_1 (grid1.coords t) := fun h => h1 ((hcond1_1 t).mp h)
      rw [Dat.leavesExact_idle (dat1 V c) 5 t (idleAt1_5 t hc1) (noFlush1_5 t hc1)]
      rw [accAt1_step V c t h0]
      unfold tile1
      rw [Phi1_castSucc V c t, PhiS_pos V c _ _ hz]
      iintro ⟨⟨HR, HS, Hg⟩, Ho, ⟨%d0, H0⟩, ⟨%d1, H1⟩, ⟨%d2, H2⟩, ⟨%d3, H3⟩, ⟨%d4, H4⟩, ⟨%d5, H5⟩⟩
      iapply (kernel1_mid c (grid1.coords t) (ms1_0 t) (hs1_0 t) (ms1_1 t) (hs1_1 t) (ms1_2 t) (hs1_2 t) (ms1_3 t) (hs1_3 t)
        (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the pair pass, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 :=
  Entails.of_eq (PhiS_zero V c 0 (Nat.zero_le _) rfl).symm

/-- After the last point the invariant gives the class invariant back: the scratch column's contents are forgotten. -/
theorem hout1 (c : Dev nD) : (dat1 (F := F) V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  refine .trans ?_ (PhiA1_close (F := F) c)
  iintro ⟨HR, HS, Hg⟩
  isplitl [HR]; · iexact HR
  isplitl [HS]; · iexists _; iexact HS
  iexact Hg

end Cert.Kernel.Tri

end
-- ==== Proof.KChain.lean ====
/-
  The buffers' contents at each boundary of the program, as a fold from the launch memory: the row pass writes
  its three columns back block by block; two transposes and two format changes follow; the pair pass writes its
  column of row sums back at the last column tile of each row tile; the closing sum follows.
-/
import proofs.«115998_j11227044511928_1_alg».proof.Proof.Gen.Kernel.Launch
import proofs.«115998_j11227044511928_1_alg».proof.Proof.Gen.Kernel.Skeleton
import proofs.«115998_j11227044511928_1_alg».proof.Proof.Gen.Kernel.Points
import proofs.«115998_j11227044511928_1_alg».proof.Proof.KData0
import proofs.«115998_j11227044511928_1_alg».proof.Proof.KData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- The same read at the TensorCore's references: what the row pass is entered from. -/
abbrev V0 : (c : Dev nD) → (b : Ref sig .tc) → Buf (Elt F) ((c : Thread nD τ).loc b) := fun c b => W0 m c b

/-- After the row pass: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the transposes and the format changes: what the pair pass is entered from. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the pair pass: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the closing sum: the contents the program ends with. -/
abbrev W4 : Dev nD → Valuation τ sig (Elt F) := fun c => StableHlo.after hostOps2 (W3 m c)

end Cert.Kernel.Tri

end
-- ==== Proof.KRun.lean ====
/-
  The run of the whole program, item by item: the row pass, the two transposes and the two format changes, the
  pair pass, the closing sum.

  Between two items each core holds every unscoped buffer whole at the contents of that boundary, its generator
  register at some state, and owes nothing. A kernel region takes its windows' arrays out of the unscoped buffers
  when it is entered and puts them back, at what its write-backs leave, when it is left; a host stretch rewrites
  the buffers its operations write and leaves the rest. Chained from the launch memory, the items end with every
  unscoped buffer at the last boundary's contents; the two arguments are written by nothing on the way, so they
  are there as launched.
-/
import proofs.«115998_j11227044511928_1_alg».proof.Proof.Gen.Kernel.Launch
import proofs.«115998_j11227044511928_1_alg».proof.Proof.Gen.Kernel.Skeleton
import proofs.«115998_j11227044511928_1_alg».proof.Proof.Gen.Kernel.Points
import proofs.«115998_j11227044511928_1_alg».proof.Proof.KChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

The closing sum writes the zero constant and the result; the pair pass's arrays are the two converted inputs, the
photo norms, the two transposed columns and its output column; the transposes and the format changes write their
four results; the row pass reads each argument through an input window, whose array is never written back. So the
fold at an argument's buffer walks back to the launch memory. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data of both regions, and the thread state between items -/

/-- The prefetched tables' admissible contents: neither region has a table. -/
abbrev adm : (p : Fin 2) → (pcfgs (F := F) p).Adm := fun p => (cfgs p).toPCfg_adm
/-- Each region's proof data at the contents it is entered from: the row pass from the launch memory, the pair
    pass from what the transposes and the format changes leave. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A host stretch as an item: from every unscoped buffer at `W` to every unscoped buffer at what the operations
    leave from `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither transpose nor format change allocates a buffer. -/
theorem hostOps1_fresh : (hostOps1 : List (HloOp τ sig (Elt F))).Forall fun op => op.fresh = ∅ := by
  simp only [List.Forall]; repeat' constructor
/-- Neither the constant nor the closing sum allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the last boundary's contents,
    the generator register at some state. -/
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- The row pass: entered from every unscoped buffer at the launch contents, left with its three output columns at
    what the write-backs leave and every other buffer as entered. Its invariant is the same at every point (the
    scoped buffers at anything, the generator register at some state), so the register goes in and comes out. -/
def reg0 (hb0 : ∀ c : Dev nD, BodyObligation (dat0 (F := F) (V0 m) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pair pass: entered from every unscoped buffer at what the transposes and the format changes leave, left with
    its column of row sums at what the write-backs leave and every other buffer as entered. Its invariant changes
    from point to point (the scratch column carries the running sums), so it is reached from the plain state at
    the first point (`hin1`) and gives the plain state back after the last (`hout1`). -/
def reg1 (hb1 : ∀ c : Dev nD, BodyObligation (dat1 (F := F) (V2 m) c) (defs₀ (F := F)) Variants.none () Set.univ)
    (hin1 : ∀ c : Dev nD, Pipeline.ΦA spec1 c ⊢ (dat1 (F := F) (V2 m) c).Φ 0)
    (hout1 : ∀ c : Dev nD, (dat1 (F := F) (V2 m) c).Φ (Fin.last cfg1.N) ⊢ Pipeline.ΦA spec1 c) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 c)
    unfold Pipeline.ΦA
    iintro ⟨Hp, -, Hr⟩
    isplitl [Hr]; · iexact Hr
    iexact Hp
  hout c := by
    rw [Pipeline.ownSems0_none]
    refine BIBase.Entails.trans (hout1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the launch -/

/-- The four items in order: the row pass, the transposes and format changes, the pair pass, the closing sum. -/
abbrev segs (hb0 : ∀ c : Dev nD, BodyObligation (dat0 (F := F) (V0 m) c) (defs₀ (F := F)) Variants.none () Set.univ)
    (hb1 : ∀ c : Dev nD, BodyObligation (dat1 (F := F) (V2 m) c) (defs₀ (F := F)) Variants.none () Set.univ)
    (hin1 : ∀ c : Dev nD, Pipeline.ΦA spec1 c ⊢ (dat1 (F := F) (V2 m) c).Φ 0)
    (hout1 : ∀ c : Dev nD, (dat1 (F := F) (V2 m) c).Φ (Fin.last cfg1.N) ⊢ Pipeline.ΦA spec1 c) :
    List (Pipeline.Seg (pcfgs (F := F)) adm (pdats m) () defs₀ 𝒱₀ L lv) :=
  [ .region (reg0 m hb0),
    .host (hseg hostOps1 hostOps1_sub hostOps1_fresh (W1 m)),
    .region (reg1 m hb1 hin1 hout1),
    .host (hseg hostOps2 hostOps2_sub hostOps2_fresh (W3 m)) ]

/-- The program is the run of the four items. -/
theorem main_run (hb0 : ∀ c : Dev nD, BodyObligation (dat0 (F := F) (V0 m) c) (defs₀ (F := F)) Variants.none () Set.univ)
    (hb1 : ∀ c : Dev nD, BodyObligation (dat1 (F := F) (V2 m) c) (defs₀ (F := F)) Variants.none () Set.univ)
    (hin1 : ∀ c : Dev nD, Pipeline.ΦA spec1 c ⊢ (dat1 (F := F) (V2 m) c).Φ 0)
    (hout1 : ∀ c : Dev nD, (dat1 (F := F) (V2 m) c).Φ (Fin.last cfg1.N) ⊢ Pipeline.ΦA spec1 c) (c : Dev nD) :
    main (F := F) c = Pipeline.Seg.run (segs m hb0 hb1 hin1 hout1) := (main_chain c).trans (by chain_rfl)

set_option backward.isDefEq.respectTransparency.types false in
/-- From any memory with zero counters, every weakly fair execution of the program on the TensorCores terminates,
    nothing faulting, and every final memory holds each unscoped buffer at the last boundary's contents: given the
    two bodies' obligations and the pair pass's invariant reached from, and giving back, the plain state. -/
theorem run_all
    (hb0 : ∀ c : Dev nD, BodyObligation (dat0 (F := F) (V0 m) c) (defs₀ (F := F)) Variants.none () Set.univ)
    (hb1 : ∀ c : Dev nD, BodyObligation (dat1 (F := F) (V2 m) c) (defs₀ (F := F)) Variants.none () Set.univ)
    (hin1 : ∀ c : Dev nD, Pipeline.ΦA spec1 c ⊢ (dat1 (F := F) (V2 m) c).Φ 0)
    (hout1 : ∀ c : Dev nD, (dat1 (F := F) (V2 m) c).Φ (Fin.last cfg1.N) ⊢ Pipeline.ΦA spec1 c) :
    θ_run defs (onTc (τ := τ) (main (F := F))) ⟨m, fun _ => 0, ρ⟩
      (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m hb0 hb1 hin1 hout1)
    (fun c Q => by rw [main_run m hb0 hb1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- info: 'Cert.Kernel.Tri.run_all' depends on axioms: [propext, Classical.choice, Quot.sound] -/
#guard_msgs in #print axioms run_all

end Cert.Kernel.Tri

end
-- ==== Proof.KIData0.lean ====
/-
  The first kernel region (the row pass): its proof data.

  The region walks the 4096 rows in 4 blocks of 1024. At block `t` the body reads the sketch block and the photo
  block and stores three columns of 1024 entries: the sketch rows' squared norms, the photo rows' squared
  norms, and the distance between the aligned rows. Each output block is one store covering the whole block,
  so what a block holds after the body is the store's value read back.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 × 512 input block, as the rectangle the body loads through. -/
abbrev rIn0 : Rect S1024x512 := Rect.unit (s := S1024x512) ![0, 0] S1024x512.size inb_S1024x512_S1024x512_0_0
/-- The whole 1024 × 1 output block, as the rectangle the body stores through. -/
abbrev rOut0 : Rect S1024x1 := Rect.unit (s := S1024x1) ![0, 0] S1024x1.size inb_S1024x1_S1024x1_0_0

/-! ## What the body leaves in each output block -/

/-- The squared norms of the sketch block's rows. -/
def out0_2 (x0 : Vec F S1024x512 .f32) : Vec F S1024x1 .f32 :=
  View.canon [⟨rOut0, k0_pay1 (View.ld x0 rIn0)⟩]
/-- The squared norms of the photo block's rows. -/
def out0_3 (x1 : Vec F S1024x512 .f32) : Vec F S1024x1 .f32 :=
  View.canon [⟨rOut0, k0_pay2 (View.ld x1 rIn0)⟩]
/-- The distances between the aligned rows of the two blocks. -/
def out0_4 (x0 x1 : Vec F S1024x512 .f32) : Vec F S1024x1 .f32 :=
  View.canon [⟨rOut0, k0_pay3 (View.ld x0 rIn0) (View.ld x1 rIn0)⟩]

/-! ## The proof data -/

/-- The row pass on core `c`: the arrays as the region finds them; after the body each input block as it was and
    each output block at its stored value; nothing kept between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]

end Cert.KernelIdeal.Tri

end
-- ==== Proof.KIBody0.lean ====
/-
  The first kernel region (the row pass): its body obligation.

  At every block of 1024 rows the body reads the sketch block and the photo block and overwrites three columns
  of 1024 entries. Each column is filled by ONE store through the rectangle of the whole block, so the stores of
  a column cover it and what the column holds afterwards is the store's value read back, whatever it held
  before (the body reads each column before it overwrites it, and uses nothing of what it read). The two input
  blocks are left as they were. Hence, handed the two input blocks and three columns at anything, the body
  returns the two input blocks and the three columns at the squared norms of the sketch rows, the squared norms
  of the photo rows and the distances between the aligned rows: the contents the proof data name.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115998_j11227044511928_1_alg».proof.Proof.KIData0

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input blocks as the body finds them -/

/-- The sketch window's current buffer holds the sketch block of the point, whether or not the block was
    fetched at this point: the window is an input, never idle and never cut, and the body leaves its block in
    place, so an unfetched buffer still holds the block of an unmoved index. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The photo window's current buffer holds the photo block of the point, for the same reasons. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## One store fills a column -/

/-- A single piece through the rectangle of the whole 1024 × 1 block tiles the block (one tile, the block
    itself), so every entry of the column lies under it. The three output columns share this shape. -/
theorem coverOut0 (p : Vec F S1024x1 .f32) (y : S1024x1.Idx) :
    ∃ pc ∈ ([⟨rOut0, p⟩] : List (View.Piece (Elt F) S1024x1 .f32)), y ∈ pc.1.set :=
  View.cover_of_tiled [⟨rOut0, p⟩] S1024x1.size (by rfl) y

/-! ## The body on whole buffers -/

set_option maxHeartbeats 1000000 in
/-- The body, on whole buffers: the two input buffers read `x0` (sketch block) and `x1` (photo block), the three
    column buffers hold anything. It runs to the continuation with the inputs as they were and the columns at
    `out0_2 x0`, `out0_3 x1`, `out0_4 x0 x1`: each column's buffer after its one covering store reads as the
    store's value, whatever was there before. -/
theorem sound_kernel0 (c : Dev nD) (E : Set ℕ) (i : grid0.Coords)
    (a1 : Memref sig .tc .vmem S1024x512 .f32) (h1 : a1.IsWhole) (a2 : Memref sig .tc .vmem S1024x512 .f32) (h2 : a2.IsWhole)
    (a3 : Memref sig .tc .vmem S1024x1 .f32) (h3 : a3.IsWhole) (a4 : Memref sig .tc .vmem S1024x1 .f32) (h4 : a4.IsWhole)
    (a5 : Memref sig .tc .vmem S1024x1 .f32) (h5 : a5.IsWhole)
    (x0 x1 : Vec F S1024x512 .f32) (K : PUnit → sProp 𝕄) :
    iprop(owns (c : Thread nD τ) a1 fullShare x0 ∗ owns (c : Thread nD τ) a2 fullShare x1
        ∗ (∃ d, owns (c : Thread nD τ) a3 fullShare d) ∗ (∃ d, owns (c : Thread nD τ) a4 fullShare d)
        ∗ (∃ d, owns (c : Thread nD τ) a5 fullShare d)
        ∗ (iprop(owns (c : Thread nD τ) a1 fullShare x0 ∗ owns (c : Thread nD τ) a2 fullShare x1
            ∗ owns (c : Thread nD τ) a3 fullShare (out0_2 x0) ∗ owns (c : Thread nD τ) a4 fullShare (out0_3 x1)
            ∗ owns (c : Thread nD τ) a5 fullShare (out0_4 x0 x1)) -∗ K ⟨⟩))
      ⊢ wp frame (wpE (defs₀ (F := F)) Variants.none c none) E (cc0__prep_kernel i a1 h1 a2 h2 a3 h3 a4 h4 a5 h5) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverOut0 _)
  isplitl [H3]
  · iexists _; isplitr
    swap; · iexact H3
    ipureintro
    exact View.read_writes_eq_canon _ _ _ (coverOut0 _)
  iexists _; isplitr
  swap; · iexact H4
  ipureintro
  exact View.read_writes_eq_canon _ _ _ (coverOut0 _)

/-! ## The body obligation, at a generic point -/

/-- What the body is handed at point `t`: the invariant, what the core owes, and the five current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two input buffers hold their blocks, the columns hold something, so the body's run
    on whole buffers applies; the invariant and what the core owes are the same before and after, and pass by
    unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the row pass, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Tri

end
-- ==== Proof.KIData1.lean ====
/-
  The second kernel region (the pair pass): its proof data.

  The region walks an 8 × 8 grid of 512 × 512 tiles of the pair matrix, the row tile `it` outermost and the column tile
  `jt` innermost (point `t = 8·it + jt`). At a point the body forms the tile of triplet terms from the photo block,
  the sketch block, the photo norms' column block and the sketch norms' and aligned distances' row blocks, hinges
  it, sums each row of the tile, and adds that column of 512 partial sums into a scratch column it keeps between
  points: reset to zero at `jt = 0`, written to the output block at `jt = 7`. So after point `t` the scratch holds
  the row sums over the column tiles `0 … jt` of row tile `it`.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512 × 512 block, the whole 512 × 1 column block and the whole 1 × 512 row block, as the rectangles the
    body loads and stores through. -/
abbrev rT : Rect S512x512 := Rect.unit (s := S512x512) ![0, 0] S512x512.size inb_S512x512_S512x512_0_0
abbrev rC : Rect S512x1 := Rect.unit (s := S512x1) ![0, 0] S512x1.size inb_S512x1_S512x1_0_0
abbrev rR : Rect S1x512 := Rect.unit (s := S1x512) ![0, 0] S1x512.size inb_S1x512_S1x512_0_0

/-- The scratch column the kernel keeps between points. -/
abbrev scM1 : Memref sig .tc .vmem S512x1 .f32 := Memref.whole cc1_scratch0

/-! ## The accumulator, point by point -/

/-- The tile of triplet terms (diagonal zeroed, not yet hinged) at point `t`, from the five input blocks. -/
def tile1 (c : Dev nD) (t : Fin cfg1.N) : FVec F S512x512 .f32 :=
  k1_pay3 (grid1.coords t) (iblk1 V c 0 t) (iblk1 V c 1 t) (iblk1 V c 2 t) (iblk1 V c 3 t) (iblk1 V c 4 t)

/-- What the scratch column holds after the body at position `n`: at the first column tile of a row tile the
    tile's hinged row sums added to zero, otherwise added to what the point before left. -/
def accAt1 (c : Dev nD) : (n : ℕ) → n < cfg1.N → Vec F S512x1 .f32
  | 0, hn => k1_pay1 (tile1 V c ⟨0, hn⟩) (k1_pay2 (F := F))
  | n + 1, hn =>
    if (n + 1) % 8 = 0 then k1_pay1 (tile1 V c ⟨n + 1, hn⟩) (k1_pay2 (F := F))
    else k1_pay1 (tile1 V c ⟨n + 1, hn⟩) (accAt1 c n (Nat.lt_of_succ_lt hn))

theorem accAt1_reset (c : Dev nD) (t : Fin cfg1.N) (h : t.val % 8 = 0) :
    accAt1 V c t.val t.isLt = k1_pay1 (tile1 V c t) (k1_pay2 (F := F)) := by
  obtain ⟨n, hn⟩ := t
  cases n with
  | zero => rfl
  | succ n => exact if_pos h

theorem accAt1_step (c : Dev nD) (t : Fin cfg1.N) (h : ¬t.val % 8 = 0) :
    accAt1 V c t.val t.isLt = k1_pay1 (tile1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The core's scoped buffers other than this region's staging buffers and its scratch column, each whole at some
    contents: the body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- Before position `n`: before the first point every scoped buffer at anything; afterwards the scratch column at
    what the point before left, the other scoped buffers at anything, the generator register at some state. -/
def PhiS (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM1 fullShare (accAt1 V c n hn) ∗ (∃ r, prngReg c r)) := rfl

theorem PhiS_pos (c : Dev nD) (n : ℕ) (h : n ≤ cfg1.N) (hz : n ≠ 0) :
    PhiS V c n h = iprop(rest1 (F := F) c ∗ owns (c : Thread nD τ) scM1 fullShare (accAt1 V c (n - 1) (by omega)) ∗ (∃ r, prngReg c r)) := by
  cases n with
  | zero => exact absurd rfl hz
  | succ n => rfl

/-! ## The proof data -/

/-- The pair pass on core `c`: the arrays as the region finds them; after the body each input block as it was and
    the output block at the accumulator (stored there at the last column tile; at the other points the window is
    idle and this value is not consulted); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accAt1 V c t.val t.isLt := by dsimp only [dat1]

theorem Phi1_castSucc (c : Dev nD) (t : Fin cfg1.N) :
    (dat1 V c).Φ t.castSucc = PhiS V c t.val (Nat.le_of_lt t.isLt) := by
  dsimp only [dat1]; simp only [Fin.coe_castSucc]

end Cert.KernelIdeal.Tri

end
-- ==== Proof.KIBody1.lean ====
/-
  The second kernel region (the pair pass): what the body does at a grid point, and that this is what the region's
  proof data says.

  The body branches twice on the column-tile coordinate `jt` of the point `t = 8·it + jt`: at `jt = 0` it first
  zeroes the scratch column; at `jt = 7` it finally copies the scratch column into the output block. In between, at
  every point, it forms the 512 × 512 tile of triplet terms from the five input blocks, hinges it, sums its rows, and
  adds that column of partial sums into the scratch column. So there are three control cases — `t ≡ 0`, `t ≡ 7`,
  neither (mod 8) — and in each the scratch column ends at the tile's hinged row sums added to what it held (to zero
  in the first case). The output block is idle off the last column tile: there it is handed back as it was found and
  is not written back to its array.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import proofs.«115998_j11227044511928_1_alg».proof.Proof.KIData1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two branch conditions over the grid -/

/-- The body's first branch: the column tile is the first of its row tile (the scratch column is reset). -/
abbrev cond1_0 (i : grid1.Coords) : Prop :=
  (Scalar.cmpi .ne (Scalar.extui (Scalar.cmpi .eq (BitVec.ofNat 32 (i 1).val) 0#32)) 0#32) = 1#1
/-- It holds exactly at the points `t ≡ 0 (mod 8)`. -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second branch: the column tile is the last of its row tile (the scratch column is stored out). -/
abbrev cond1_1 (i : grid1.Coords) : Prop := k1_cond2 i = 1#1
/-- It holds exactly at the points `t ≡ 7 (mod 8)`. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where a window is idle -/

/-- The five input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column tile the output window is idle, and its block is not written back there. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column tile it is live. -/
theorem liveAt1_5 : ∀ t : Fin cfg1.N, cond1_1 (grid1.coords t) → cfg1.idle 5 (grid1.coords t) = false := by decide +kernel

/-! ## The class invariant, opened -/

/-- The class invariant is the scoped buffers the body never touches, the scratch column at some contents, and the
    generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; try rfl

/-- Opened towards the invariant between points: the untouched buffers, the scratch column at some contents, the
    generator register. -/
theorem PhiA1_open (c : Dev nD) :
    (Pipeline.ΦA spec1 c : sProp 𝕄) ⊢ iprop(rest1 (F := F) c ∗ (∃ d, owns (c : Thread nD τ) scM1 fullShare d) ∗ (∃ r, prngReg c r)) := by
  rw [PhiA1_eq]; unfold rest1
  iintro ⟨⟨H1, H2, H3, H4, H5, H6, H7, H8, H9, H10, HS⟩, Hg⟩
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HS]; · iexact HS
  iexact Hg

/-- And closed again. -/
theorem PhiA1_close (c : Dev nD) :
    iprop(rest1 (F := F) c ∗ (∃ d, owns (c : Thread nD τ) scM1 fullShare d) ∗ (∃ r, prngReg c r)) ⊢ (Pipeline.ΦA spec1 c : sProp 𝕄) := by
  rw [PhiA1_eq]; unfold rest1
  iintro ⟨⟨H1, H2, H3, H4, H5, H6, H7, H8, H9, H10⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-! ## What the body finds in the input windows -/

/-- An input window's current staging buffer holds its block at every point, fetched there or not: where the
    pipeline does not fetch, the block index has not moved. For any proof data whose array is the region's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body on whole memrefs, case by case -/

/-- The zero offsets of a whole-block rectangle, as a constant function. -/
theorem zeroOffs1 : (![0, 0] : Fin 2 → Nat) = fun _ => 0 := funext fun a => by fin_cases a <;> rfl

/-- A buffer whose LAST store went through the whole-shape rectangle at zero offsets reads back that store's payload,
    whatever it held before and whatever the earlier stores were: the rectangle holds every index. -/
theorem read_last_whole_store1 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

set_option maxHeartbeats 1000000 in
/-- THE FIRST COLUMN TILE of a row tile. On whole memrefs — the five inputs at their contents, the output block at
    contents it hands back untouched, the scratch column at anything — the body zeroes the scratch column, forms the
    tile, and leaves in the scratch column the tile's hinged row sums added to zero. -/
theorem kernel1_reset (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S512x1 .f32) (harg7 : arg7.IsWhole)
    (arg8 : Memref sig .tc .vmem S512x1 .f32) (harg8 : arg8.IsWhole) (hc0 : cond1_0 i) (hc1 : ¬cond1_1 i)
    (x0 x1 : Vec F S512x512 .bf16) (x2 : Vec F S512x1 .f32) (x3 x4 : Vec F S1x512 .f32) (xi5 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay1 (k1_pay3 i x0 x1 x2 x3 x4) (k1_pay2 (F := F)))) -∗ K ⟨⟩))
      ⊢ wp frame (wpE (defs₀ (F := F)) Variants.none c none) E (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  sl_unfold_words
  rw [read_last_whole_store1 (S := S512x1) _ _ zeroOffs1]
  rw [View.readCov_unit_zero (S := S512x1) _ zeroOffs1]
  simp only [View.readAt_eq_ld, harg2.read_unread, harg3.read_unread, harg4.read_unread, harg5.read_unread, harg6.read_unread,
    View.ld_unit_zero (S := S512x512) zeroOffs1, View.ld_unit_zero (S := S512x1) zeroOffs1, View.ld_unit_zero (S := S1x512) zeroOffs1]

set_option maxHeartbeats 1000000 in
/-- A COLUMN TILE STRICTLY INSIDE a row tile. On whole memrefs — the five inputs at their contents, the output block
    at contents it hands back untouched, the scratch column at what the point before left — the body forms the tile
    and adds its hinged row sums into the scratch column. -/
theorem kernel1_mid (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S512x1 .f32) (harg7 : arg7.IsWhole)
    (arg8 : Memref sig .tc .vmem S512x1 .f32) (harg8 : arg8.IsWhole) (hc0 : ¬cond1_0 i) (hc1 : ¬cond1_1 i)
    (x0 x1 : Vec F S512x512 .bf16) (x2 : Vec F S512x1 .f32) (x3 x4 : Vec F S1x512 .f32) (xi5 xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay1 (k1_pay3 i x0 x1 x2 x3 x4) xs)) -∗ K ⟨⟩))
      ⊢ wp frame (wpE (defs₀ (F := F)) Variants.none c none) E (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_last_whole_store1 (S := S512x1) _ _ zeroOffs1]
  simp only [View.readAt_eq_ld, harg2.read_unread, harg3.read_unread, harg4.read_unread, harg5.read_unread, harg6.read_unread,
    harg8.read_unread, View.ld_unit_zero (S := S512x512) zeroOffs1, View.ld_unit_zero (S := S512x1) zeroOffs1, View.ld_unit_zero (S := S1x512) zeroOffs1]

set_option maxHeartbeats 1000000 in
/-- THE LAST COLUMN TILE of a row tile. On whole memrefs — the five inputs at their contents, the output block at
    anything, the scratch column at what the point before left — the body forms the tile, adds its hinged row sums
    into the scratch column, and stores the scratch column into the output block: both end at that sum. -/
theorem kernel1_last (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S512x1 .f32) (harg7 : arg7.IsWhole)
    (arg8 : Memref sig .tc .vmem S512x1 .f32) (harg8 : arg8.IsWhole) (hc0 : ¬cond1_0 i) (hc1 : cond1_1 i)
    (x0 x1 : Vec F S512x512 .bf16) (x2 : Vec F S512x1 .f32) (x3 x4 : Vec F S1x512 .f32) (xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k1_pay1 (k1_pay3 i x0 x1 x2 x3 x4) xs)
            ∗ owns (c : Thread nD τ) arg8 fullShare (k1_pay1 (k1_pay3 i x0 x1 x2 x3 x4) xs)) -∗ K ⟨⟩))
      ⊢ wp frame (wpE (defs₀ (F := F)) Variants.none c none) E (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [read_last_whole_store1 (S := S512x1) _ _ zeroOffs1]
    rw [View.readCov_unit_zero (S := S512x1) _ zeroOffs1]
    simp only [View.readAt_eq_ld, harg2.read_unread, harg3.read_unread, harg4.read_unread, harg5.read_unread, harg6.read_unread,
      harg8.read_unread, View.ld_unit_zero (S := S512x512) zeroOffs1, View.ld_unit_zero (S := S512x1) zeroOffs1, View.ld_unit_zero (S := S1x512) zeroOffs1]
  iexists _; isplitr
  swap; · iexact HS
  ipureintro
  sl_unfold_words
  rw [read_last_whole_store1 (S := S512x1) _ _ zeroOffs1]
  simp only [View.readAt_eq_ld, harg2.read_unread, harg3.read_unread, harg4.read_unread, harg5.read_unread, harg6.read_unread,
    harg8.read_unread, View.ld_unit_zero (S := S512x512) zeroOffs1, View.ld_unit_zero (S := S512x1) zeroOffs1, View.ld_unit_zero (S := S1x512) zeroOffs1]

/-! ## The body obligation -/

/-- Each window's current staging memref at point `t`, spelled as the pipeline passes it to the body, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)

/-- What the body is called with at point `t`: the invariant, what the core owes, and each window's current buffer
    at what it holds before the body. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it returns: the invariant at the next position, the same debt, and each window's buffer as the body leaves it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' buffers hold their blocks; the point's residue modulo 8 says which of the three
    control cases it is in. At the first column tile the invariant hands the scratch column at what the point before
    left (at anything before the very first point) and takes it back at the tile's hinged row sums added to zero; at
    the other tiles it takes it back at those sums added to what the point before left; the output block is handed
    back untouched except at the last column tile, where it ends at the scratch column's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · -- the first column tile of a row tile
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [accAt1_reset V c t h0]
    unfold tile1
    by_cases hz : t.val = 0
    · rw [Phi1_castSucc V c t, PhiS_zero V c _ _ hz]
      refine (sep_mono (PhiA1_open (F := F) c) .rfl).trans ?_
      iintro ⟨⟨HR, HS, Hg⟩, Ho, ⟨%d0, H0⟩, ⟨%d1, H1⟩, ⟨%d2, H2⟩, ⟨%d3, H3⟩, ⟨%d4, H4⟩, ⟨%d5, H5⟩⟩
      iapply (kernel1_reset c (grid1.coords t) (ms1_0 t) (hs1_0 t) (ms1_1 t) (hs1_1 t) (ms1_2 t) (hs1_2 t) (ms1_3 t) (hs1_3 t)
        (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi1_castSucc V c t, PhiS_pos V c _ _ hz]
      iintro ⟨⟨HR, HS, Hg⟩, Ho, ⟨%d0, H0⟩, ⟨%d1, H1⟩, ⟨%d2, H2⟩, ⟨%d3, H3⟩, ⟨%d4, H4⟩, ⟨%d5, H5⟩⟩
      iapply (kernel1_reset c (grid1.coords t) (ms1_0 t) (hs1_0 t) (ms1_1 t) (hs1_1 t) (ms1_2 t) (hs1_2 t) (ms1_3 t) (hs1_3 t)
        (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond1_0 (grid1.coords t) := fun h => h0 ((hcond1_0 t).mp h)
    by_cases h1 : t.val % 8 = 7
    · -- the last column tile of a row tile
      have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [accAt1_step V c t h0]
      unfold tile1
      rw [Phi1_castSucc V c t, PhiS_pos V c _ _ hz]
      iintro ⟨⟨HR, HS, Hg⟩, Ho, ⟨%d0, H0⟩, ⟨%d1, H1⟩, ⟨%d2, H2⟩, ⟨%d3, H3⟩, ⟨%d4, H4⟩, ⟨%d5, H5⟩⟩
      iapply (kernel1_last c (grid1.coords t) (ms1_0 t) (hs1_0 t) (ms1_1 t) (hs1_1 t) (ms1_2 t) (hs1_2 t) (ms1_3 t) (hs1_3 t)
        (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a column tile strictly inside a row tile
      have hc1 : ¬cond1_1 (grid1.coords t) := fun h => h1 ((hcond1_1 t).mp h)
      rw [Dat.leavesExact_idle (dat1 V c) 5 t (idleAt1_5 t hc1) (noFlush1_5 t hc1)]
      rw [accAt1_step V c t h0]
      unfold tile1
      rw [Phi1_castSucc V c t, PhiS_pos V c _ _ hz]
      iintro ⟨⟨HR, HS, Hg⟩, Ho, ⟨%d0, H0⟩, ⟨%d1, H1⟩, ⟨%d2, H2⟩, ⟨%d3, H3⟩, ⟨%d4, H4⟩, ⟨%d5, H5⟩⟩
      iapply (kernel1_mid c (grid1.coords t) (ms1_0 t) (hs1_0 t) (ms1_1 t) (hs1_1 t) (ms1_2 t) (hs1_2 t) (ms1_3 t) (hs1_3 t)
        (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the pair pass, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 :=
  Entails.of_eq (PhiS_zero V c 0 (Nat.zero_le _) rfl).symm

/-- After the last point the invariant gives the class invariant back: the scratch column's contents are forgotten. -/
theorem hout1 (c : Dev nD) : (dat1 (F := F) V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  refine .trans ?_ (PhiA1_close (F := F) c)
  iintro ⟨HR, HS, Hg⟩
  isplitl [HR]; · iexact HR
  isplitl [HS]; · iexists _; iexact HS
  iexact Hg

end Cert.KernelIdeal.Tri

end
-- ==== Proof.KIChain.lean ====
/-
  The buffers' contents at each boundary of the program, as a fold from the launch memory: the row pass writes
  its three columns back block by block; two transposes and two format changes follow; the pair pass writes its
  column of row sums back at the last column tile of each row tile; the closing sum follows.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import proofs.«115998_j11227044511928_1_alg».proof.Proof.KIData0
import proofs.«115998_j11227044511928_1_alg».proof.Proof.KIData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- The same read at the TensorCore's references: what the row pass is entered from. -/
abbrev V0 : (c : Dev nD) → (b : Ref sig .tc) → Buf (Elt F) ((c : Thread nD τ).loc b) := fun c b => W0 m c b

/-- After the row pass: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the transposes and the format changes: what the pair pass is entered from. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the pair pass: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the closing sum: the contents the program ends with. -/
abbrev W4 : Dev nD → Valuation τ sig (Elt F) := fun c => StableHlo.after hostOps2 (W3 m c)

end Cert.KernelIdeal.Tri

end
-- ==== Proof.KIRun.lean ====
/-
  The run of the whole program, item by item: the row pass, the two transposes and the two format changes, the
  pair pass, the closing sum.

  Between two items each core holds every unscoped buffer whole at the contents of that boundary, its generator
  register at some state, and owes nothing. A kernel region takes its windows' arrays out of the unscoped buffers
  when it is entered and puts them back, at what its write-backs leave, when it is left; a host stretch rewrites
  the buffers its operations write and leaves the rest. Chained from the launch memory, the items end with every
  unscoped buffer at the last boundary's contents; the two arguments are written by nothing on the way, so they
  are there as launched.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import proofs.«115998_j11227044511928_1_alg».proof.Proof.KIChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

The closing sum writes the zero constant and the result; the pair pass's arrays are the two converted inputs, the
photo norms, the two transposed columns and its output column; the transposes and the format changes write their
four results; the row pass reads each argument through an input window, whose array is never written back. So the
fold at an argument's buffer walks back to the launch memory. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data of both regions, and the thread state between items -/

/-- The prefetched tables' admissible contents: neither region has a table. -/
abbrev adm : (p : Fin 2) → (pcfgs (F := F) p).Adm := fun p => (cfgs p).toPCfg_adm
/-- Each region's proof data at the contents it is entered from: the row pass from the launch memory, the pair
    pass from what the transposes and the format changes leave. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A host stretch as an item: from every unscoped buffer at `W` to every unscoped buffer at what the operations
    leave from `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither transpose nor format change allocates a buffer. -/
theorem hostOps1_fresh : (hostOps1 : List (HloOp τ sig (Elt F))).Forall fun op => op.fresh = ∅ := by
  simp only [List.Forall]; repeat' constructor
/-- Neither the constant nor the closing sum allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the last boundary's contents,
    the generator register at some state. -/
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- The row pass: entered from every unscoped buffer at the launch contents, left with its three output columns at
    what the write-backs leave and every other buffer as entered. Its invariant is the same at every point (the
    scoped buffers at anything, the generator register at some state), so the register goes in and comes out. -/
def reg0 (hb0 : ∀ c : Dev nD, BodyObligation (dat0 (F := F) (V0 m) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pair pass: entered from every unscoped buffer at what the transposes and the format changes leave, left with
    its column of row sums at what the write-backs leave and every other buffer as entered. Its invariant changes
    from point to point (the scratch column carries the running sums), so it is reached from the plain state at
    the first point (`hin1`) and gives the plain state back after the last (`hout1`). -/
def reg1 (hb1 : ∀ c : Dev nD, BodyObligation (dat1 (F := F) (V2 m) c) (defs₀ (F := F)) Variants.none () Set.univ)
    (hin1 : ∀ c : Dev nD, Pipeline.ΦA spec1 c ⊢ (dat1 (F := F) (V2 m) c).Φ 0)
    (hout1 : ∀ c : Dev nD, (dat1 (F := F) (V2 m) c).Φ (Fin.last cfg1.N) ⊢ Pipeline.ΦA spec1 c) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 c)
    unfold Pipeline.ΦA
    iintro ⟨Hp, -, Hr⟩
    isplitl [Hr]; · iexact Hr
    iexact Hp
  hout c := by
    rw [Pipeline.ownSems0_none]
    refine BIBase.Entails.trans (hout1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the launch -/

/-- The four items in order: the row pass, the transposes and format changes, the pair pass, the closing sum. -/
abbrev segs (hb0 : ∀ c : Dev nD, BodyObligation (dat0 (F := F) (V0 m) c) (defs₀ (F := F)) Variants.none () Set.univ)
    (hb1 : ∀ c : Dev nD, BodyObligation (dat1 (F := F) (V2 m) c) (defs₀ (F := F)) Variants.none () Set.univ)
    (hin1 : ∀ c : Dev nD, Pipeline.ΦA spec1 c ⊢ (dat1 (F := F) (V2 m) c).Φ 0)
    (hout1 : ∀ c : Dev nD, (dat1 (F := F) (V2 m) c).Φ (Fin.last cfg1.N) ⊢ Pipeline.ΦA spec1 c) :
    List (Pipeline.Seg (pcfgs (F := F)) adm (pdats m) () defs₀ 𝒱₀ L lv) :=
  [ .region (reg0 m hb0),
    .host (hseg hostOps1 hostOps1_sub hostOps1_fresh (W1 m)),
    .region (reg1 m hb1 hin1 hout1),
    .host (hseg hostOps2 hostOps2_sub hostOps2_fresh (W3 m)) ]

/-- The program is the run of the four items. -/
theorem main_run (hb0 : ∀ c : Dev nD, BodyObligation (dat0 (F := F) (V0 m) c) (defs₀ (F := F)) Variants.none () Set.univ)
    (hb1 : ∀ c : Dev nD, BodyObligation (dat1 (F := F) (V2 m) c) (defs₀ (F := F)) Variants.none () Set.univ)
    (hin1 : ∀ c : Dev nD, Pipeline.ΦA spec1 c ⊢ (dat1 (F := F) (V2 m) c).Φ 0)
    (hout1 : ∀ c : Dev nD, (dat1 (F := F) (V2 m) c).Φ (Fin.last cfg1.N) ⊢ Pipeline.ΦA spec1 c) (c : Dev nD) :
    main (F := F) c = Pipeline.Seg.run (segs m hb0 hb1 hin1 hout1) := (main_chain c).trans (by chain_rfl)

set_option backward.isDefEq.respectTransparency.types false in
/-- From any memory with zero counters, every weakly fair execution of the program on the TensorCores terminates,
    nothing faulting, and every final memory holds each unscoped buffer at the last boundary's contents: given the
    two bodies' obligations and the pair pass's invariant reached from, and giving back, the plain state. -/
theorem run_all
    (hb0 : ∀ c : Dev nD, BodyObligation (dat0 (F := F) (V0 m) c) (defs₀ (F := F)) Variants.none () Set.univ)
    (hb1 : ∀ c : Dev nD, BodyObligation (dat1 (F := F) (V2 m) c) (defs₀ (F := F)) Variants.none () Set.univ)
    (hin1 : ∀ c : Dev nD, Pipeline.ΦA spec1 c ⊢ (dat1 (F := F) (V2 m) c).Φ 0)
    (hout1 : ∀ c : Dev nD, (dat1 (F := F) (V2 m) c).Φ (Fin.last cfg1.N) ⊢ Pipeline.ΦA spec1 c) :
    θ_run defs (onTc (τ := τ) (main (F := F))) ⟨m, fun _ => 0, ρ⟩
      (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m hb0 hb1 hin1 hout1)
    (fun c Q => by rw [main_run m hb0 hb1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- info: 'Cert.KernelIdeal.Tri.run_all' depends on axioms: [propext, Classical.choice, Quot.sound] -/
#guard_msgs in #print axioms run_all

end Cert.KernelIdeal.Tri

end
-- ==== Proof.TripletSpec.lean ====
/-
  The quantity both programs compute, as ONE function of the two argument arrays over the extended reals.

  For a batch of 4096 sketch rows `s j` and 4096 photo rows `p i`, each of 512 entries:
    * `ssq s j`  = Σ_d (s j d)²,  `psq p i` = Σ_d (p i d)²            (squared row norms)
    * `posd s p j` = √ Σ_d (s j d − p j d)²                         (distance of the aligned pair j)
    * `cross s p i j` = Σ_d p i d · s j d                            (the Gram entry)
    * `negd s p i j` = √ max((psq p i + ssq s j) − 2·cross s p i j, 0) (distance of photo i to sketch j)
    * `hinge s p i j` = max(t, 0) with t = 0 on the diagonal and (posd j − negd i j) + margin off it
    * `loss s p` = Σ_i Σ_j hinge s p i j.
  The literals 2 and the margin are kept as the binary words the two programs share; they are never evaluated.
-/
import Idealize.ShloMosaic.PureOps.Ideal
import Idealize.ShloMosaic.Lib.ValueIdx

noncomputable section

namespace Cert.Triplet

open Idealize.ShloMosaic Idealize.ShloMosaic.ValueIdx

/-- A 4096 × 512 array of extended reals, by row and column. -/
abbrev Mat : Type := Fin 4096 → Fin 512 → EReal

/-- An array over the literal shape read by row and column. -/
abbrev toMat (a : (⟨2, ![4096, 512]⟩ : Shape).Idx → EReal) : Mat := fun i d => a (ix2 i d)

/-- The factor 2 of the Gram term, as the word both programs print. -/
def two : EReal := Ideal.ofBits .f32 0x40000000#32
/-- The margin (the f32 nearest 0.3), as the word both programs print. -/
def margin : EReal := Ideal.ofBits .f32 0x3E99999A#32

/-- Squared norm of sketch row `j`. -/
def ssq (s : Mat) (j : Fin 4096) : EReal := ∑ d : Fin 512, s j d * s j d
/-- Squared norm of photo row `i`. -/
def psq (p : Mat) (i : Fin 4096) : EReal := ∑ d : Fin 512, p i d * p i d
/-- Distance between sketch row `j` and photo row `j`. -/
def posd (s p : Mat) (j : Fin 4096) : EReal := Ideal.sqrt (∑ d : Fin 512, (s j d - p j d) * (s j d - p j d))
/-- Inner product of photo row `i` with sketch row `j`. -/
def cross (s p : Mat) (i j : Fin 4096) : EReal := ∑ d : Fin 512, p i d * s j d
/-- Distance between photo row `i` and sketch row `j`, by the polarisation identity, clamped at zero. -/
def negd (s p : Mat) (i j : Fin 4096) : EReal := Ideal.sqrt (max ((psq p i + ssq s j) - two * cross s p i j) 0)
/-- The triplet term before the hinge, off the diagonal. -/
def trip (s p : Mat) (i j : Fin 4096) : EReal := (posd s p j - negd s p i j) + margin
/-- The hinged triplet term, the diagonal zeroed. -/
def hinge (s p : Mat) (i j : Fin 4096) : EReal := max (if i = j then 0 else trip s p i j) 0
/-- The loss: the hinged terms summed over all pairs. -/
def loss (s p : Mat) : EReal := ∑ i : Fin 4096, ∑ j : Fin 4096, hinge s p i j

end Cert.Triplet

end
-- ==== Proof.KIValue0.lean ====
/-
  The first kernel region (the row pass): what its three output arrays hold after it.

  The region walks the 4096 rows in 4 blocks of 1024. At block `t` the body sees rows 1024·t … 1024·t + 1023 of
  the sketch array `s` and of the photo array `p` (all 512 columns) and stores three columns of 1024 entries:
    * Σ_d s[j,d]² for each row j of the block   (multiply entrywise, sum along the columns, cast to a column),
    * Σ_d p[j,d]² likewise,
    * √ Σ_d (s[j,d] − p[j,d])²                   (subtract, multiply, sum, cast, root).
  Over the extended reals a sum along one axis from the zero word is the plain finite sum over that axis, so each
  stored entry is the specification's `ssq`, `psq`, `posd` at the row's position 1024·t + r in the whole array.
  Block `t` of an output array is written once, by point `t`, and row i lies in the block of point i / 1024, so
  the four blocks cover each output array and the array ends holding the specification's function at every row.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115998_j11227044511928_1_alg».proof.Proof.KIData0
import proofs.«115998_j11227044511928_1_alg».proof.Proof.TripletSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Triplet Idealize.ShloMosaic.ValueIdx

variable {F : FTy → Type} [FloatOps F]

local notation "𝕄" => MT nD τ sig Unit (Elt F) ℕ (UR sig nD τ) ℕ

/-! ## Reading the payloads at a row -/

/-- A vector of `a` entries cast to one column reads, at row `i`, entry `i`. -/
theorem castCol_apply0 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced vector with column `d` put back is entry `(r, d)` of the block. -/
theorem liftRow0 (h : S1024x512.Reduces [1] S1024) (r : Fin 1024) (d : Fin 512) :
    h.lift (ix1 r) d = ix2 r d := by
  funext a
  apply Fin.ext
  match a with
  | ⟨0, _⟩ => rfl
  | ⟨1, _⟩ => rfl

/-- The sum along the 512 columns, from the zero word, at row `r`: the sum of the row's entries. -/
theorem rowSum0 (x : FVec Ideal S1024x512 .f32) (h : S1024x512.Reduces [1] S1024) (hφ : FKind.Formats .f32)
    (hacc : (0x00000000#32 : BitVec 32) = FKind.add.neutral .f32 hφ) (r : Fin 1024) :
    multiReduction .add [1] S1024 x 0x00000000#32 h hφ hacc (ix1 r) = ∑ d : Fin 512, x (ix2 r d) := by
  refine (Ideal.multiReduction_add_single x 0x00000000#32 h hφ hacc (ix1 r)).trans ?_
  exact Finset.sum_congr rfl fun d _ => congrArg x (liftRow0 h r d)

/-- The first payload at row `r`: the squared norm of the block's row. -/
theorem sqnormA_at (x : Vec Ideal S1024x512 .f32) (r : Fin 1024) (u : Fin 1) :
    k0_pay1 x (ix2 r u) = ∑ d : Fin 512, x (ix2 r d) * x (ix2 r d) := by
  unfold k0_pay1
  refine (castCol_apply0 _ _ r u).trans ?_
  refine (rowSum0 _ _ _ _ r).trans ?_
  rfl

/-- The second payload is the same function of its block. -/
theorem sqnormB_at (x : Vec Ideal S1024x512 .f32) (r : Fin 1024) (u : Fin 1) :
    k0_pay2 x (ix2 r u) = ∑ d : Fin 512, x (ix2 r d) * x (ix2 r d) := by
  unfold k0_pay2
  refine (castCol_apply0 _ _ r u).trans ?_
  refine (rowSum0 _ _ _ _ r).trans ?_
  rfl

/-- The third payload at row `r`: the root of the summed squared differences of the two blocks' rows. -/
theorem dist_at (x0 x1 : Vec Ideal S1024x512 .f32) (r : Fin 1024) (u : Fin 1) :
    k0_pay3 x0 x1 (ix2 r u)
      = Ideal.sqrt (∑ d : Fin 512, (x0 (ix2 r d) - x1 (ix2 r d)) * (x0 (ix2 r d) - x1 (ix2 r d))) := by
  unfold k0_pay3
  refine congrArg Ideal.sqrt ?_
  refine (castCol_apply0 _ _ r u).trans ?_
  refine (rowSum0 _ _ _ _ r).trans ?_
  rfl

/-! ## One row of each output, from the rows of the arrays it reads -/

/-- If row `r` of the block is row `i` of the matrix, the first payload at `r` is that row's squared norm. -/
theorem sqnormA_row (x : Vec Ideal S1024x512 .f32) (A : Mat) (i : Fin 4096) (r : Fin 1024) (u : Fin 1)
    (hx : ∀ d : Fin 512, x (ix2 r d) = A i d) : k0_pay1 x (ix2 r u) = ssq A i := by
  refine (sqnormA_at x r u).trans ?_
  unfold ssq
  exact Finset.sum_congr rfl fun d _ => by rw [hx d]

/-- The same for the second payload and the photo rows' squared norms. -/
theorem sqnormB_row (x : Vec Ideal S1024x512 .f32) (A : Mat) (i : Fin 4096) (r : Fin 1024) (u : Fin 1)
    (hx : ∀ d : Fin 512, x (ix2 r d) = A i d) : k0_pay2 x (ix2 r u) = psq A i := by
  refine (sqnormB_at x r u).trans ?_
  unfold psq
  exact Finset.sum_congr rfl fun d _ => by rw [hx d]

/-- If row `r` of the two blocks is row `i` of the two matrices, the third payload at `r` is the distance of
    the aligned pair `i`. -/
theorem dist_row (x0 x1 : Vec Ideal S1024x512 .f32) (A B : Mat) (i : Fin 4096) (r : Fin 1024) (u : Fin 1)
    (hx0 : ∀ d : Fin 512, x0 (ix2 r d) = A i d) (hx1 : ∀ d : Fin 512, x1 (ix2 r d) = B i d) :
    k0_pay3 x0 x1 (ix2 r u) = posd A B i := by
  refine (dist_at x0 x1 r u).trans ?_
  unfold posd
  exact congrArg Ideal.sqrt (Finset.sum_congr rfl fun d _ => by rw [hx0 d, hx1 d])

/-! ## The blocks of the two inputs, and of the three outputs, in the arrays -/

variable (V : (c : Dev nD) → (b : Ref sig .tc) → Buf (Elt Ideal) ((c : Thread nD τ).loc b))

/-- The zero offsets of a whole-block rectangle. -/
theorem zeroOff0 : (![0, 0] : Fin 2 → Nat) = fun _ => 0 := funext fun a => by fin_cases a <;> rfl

/-- Every window's block at point `t` is block `t` along the rows and block 0 along the columns. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry `(r, d)` of the sketch block at point `t` is entry `(1024·t + r, d)` of the sketch array. -/
theorem sketchBlk_apply (c : Dev nD) (t : Fin cfg0.N) (r : Fin 1024) (d : Fin 512) (i : Fin 4096)
    (hi : i.val = 1024 * t.val + r.val) :
    (iblk0 V c 0 t : Vec Ideal S1024x512 .f32) (ix2 r d) = toMat (V c main_arg0) i d := by
  obtain ⟨e0, e1, -⟩ := blockIdx0 t
  unfold iblk0
  rw [View.read_apply]
  show V c main_arg0 _ = V c main_arg0 _
  refine congrArg (V c main_arg0) ?_
  funext a
  apply Fin.ext
  match a with
  | ⟨0, _⟩ => show win0_0.index t (0 : Fin 2) * 1024 + 1 * r.val = i.val; rw [e0, hi]; omega
  | ⟨1, _⟩ => show win0_0.index t (1 : Fin 2) * 512 + 1 * d.val = d.val; rw [e1]; omega

/-- Entry `(r, d)` of the photo block at point `t` is entry `(1024·t + r, d)` of the photo array. -/
theorem photoBlk_apply (c : Dev nD) (t : Fin cfg0.N) (r : Fin 1024) (d : Fin 512) (i : Fin 4096)
    (hi : i.val = 1024 * t.val + r.val) :
    (iblk0 V c 1 t : Vec Ideal S1024x512 .f32) (ix2 r d) = toMat (V c main_arg1) i d := by
  obtain ⟨-, -, e0, e1, -⟩ := blockIdx0 t
  unfold iblk0
  rw [View.read_apply]
  show V c main_arg1 _ = V c main_arg1 _
  refine congrArg (V c main_arg1) ?_
  funext a
  apply Fin.ext
  match a with
  | ⟨0, _⟩ => show win0_1.index t (0 : Fin 2) * 1024 + 1 * r.val = i.val; rw [e0, hi]; omega
  | ⟨1, _⟩ => show win0_1.index t (1 : Fin 2) * 512 + 1 * d.val = d.val; rw [e1]; omega

/-! ## The squared norms of the sketch rows (window 2) -/

/-- What point `t` writes back is block `t` of the sketch rows' squared norms. -/
theorem wrote0_2 (c : Dev nD) (t : Fin cfg0.N) :
    (dat0 (F := Ideal) V c).flushed 2 t
      = ((cfg0.win 2).blk t).view.read (Elt Ideal) (fun y : S4096x1.Idx => ssq (toMat (V c main_arg0)) (y 0)) := by
  show (cfg0.win 2).cut (grid0.coords t) ((dat0 V c).after 2 t) = _
  rw [after0_2]
  unfold out0_2
  rw [View.canon_unit_zero zeroOff0]
  simp only [View.ld_unit_zero (S := S1024x512) zeroOff0]
  obtain ⟨-, -, -, -, e0, e1, -⟩ := blockIdx0 t
  funext j
  obtain ⟨r, u, rfl⟩ : ∃ (r : Fin 1024) (u : Fin 1), j = ix2 r u := ⟨j 0, j 1, eq_ix2 j⟩
  show k0_pay1 (iblk0 V c 0 t) (ix2 r u)
    = ssq (toMat (V c main_arg0)) ((((cfg0.win 2).blk t).view.emb (ix2 r u)) 0)
  refine sqnormA_row (iblk0 V c 0 t) (toMat (V c main_arg0)) _ r u fun d => ?_
  refine sketchBlk_apply V c t r d _ ?_
  show win0_2.index t (0 : Fin 2) * 1024 + 1 * r.val = 1024 * t.val + r.val
  rw [e0]; omega

/-- An index of the array is in point `t`'s block iff each coordinate is in the block's range on its axis. -/
theorem mem_blk0_2 (t : Fin cfg0.N) (i : S4096x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0_0).slice (win0_2.rect t)).set ↔ _
  rw [View.set_slice_whole, Rect.mem_set_unit]
  exact Iff.rfl

/-- Row `i` lies in the block of point `i / 1024`: the four blocks cover the array. -/
theorem cover0_2 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 4 := N_0
  obtain ⟨t, ht⟩ : ∃ t : Fin cfg0.N, t.val = (i 0).val / 1024 := ⟨⟨(i 0).val / 1024, by rw [hN]; omega⟩, rfl⟩
  obtain ⟨-, -, -, -, e0, e1, -⟩ := blockIdx0 t
  refine ⟨t, flush0_2 t, ?_⟩
  rw [mem_blk0_2]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 1 ≤ (i 1).val ∧ (i 1).val < win0_2.index t (1 : Fin 2) * 1 + 1
    rw [e1]; omega

/-- After the region the first output array holds every sketch row's squared norm. -/
theorem arr0_2 (c : Dev nD) :
    (dat0 (F := Ideal) V c).arrAt 2 cfg0.N = fun y => Cert.Triplet.ssq (toMat (V c main_arg0)) (y 0) :=
  (dat0 V c).arrAt_eq_of_cover 2 _ (fun t _ => wrote0_2 V c t) cover0_2

/-! ## The squared norms of the photo rows (window 3) -/

/-- What point `t` writes back is block `t` of the photo rows' squared norms. -/
theorem wrote0_3 (c : Dev nD) (t : Fin cfg0.N) :
    (dat0 (F := Ideal) V c).flushed 3 t
      = ((cfg0.win 3).blk t).view.read (Elt Ideal) (fun y : S4096x1.Idx => psq (toMat (V c main_arg1)) (y 0)) := by
  show (cfg0.win 3).cut (grid0.coords t) ((dat0 V c).after 3 t) = _
  rw [after0_3]
  unfold out0_3
  rw [View.canon_unit_zero zeroOff0]
  simp only [View.ld_unit_zero (S := S1024x512) zeroOff0]
  obtain ⟨-, -, -, -, -, -, e0, e1, -⟩ := blockIdx0 t
  funext j
  obtain ⟨r, u, rfl⟩ : ∃ (r : Fin 1024) (u : Fin 1), j = ix2 r u := ⟨j 0, j 1, eq_ix2 j⟩
  show k0_pay2 (iblk0 V c 1 t) (ix2 r u)
    = psq (toMat (V c main_arg1)) ((((cfg0.win 3).blk t).view.emb (ix2 r u)) 0)
  refine sqnormB_row (iblk0 V c 1 t) (toMat (V c main_arg1)) _ r u fun d => ?_
  refine photoBlk_apply V c t r d _ ?_
  show win0_3.index t (0 : Fin 2) * 1024 + 1 * r.val = 1024 * t.val + r.val
  rw [e0]; omega

/-- The same for the second output's blocks. -/
theorem mem_blk0_3 (t : Fin cfg0.N) (i : S4096x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v0_1).slice (win0_3.rect t)).set ↔ _
  rw [View.set_slice_whole, Rect.mem_set_unit]
  exact Iff.rfl

/-- Row `i` lies in the block of point `i / 1024`. -/
theorem cover0_3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 4 := N_0
  obtain ⟨t, ht⟩ : ∃ t : Fin cfg0.N, t.val = (i 0).val / 1024 := ⟨⟨(i 0).val / 1024, by rw [hN]; omega⟩, rfl⟩
  obtain ⟨-, -, -, -, -, -, e0, e1, -⟩ := blockIdx0 t
  refine ⟨t, flush0_3 t, ?_⟩
  rw [mem_blk0_3]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1 ≤ (i 1).val ∧ (i 1).val < win0_3.index t (1 : Fin 2) * 1 + 1
    rw [e1]; omega

/-- After the region the second output array holds every photo row's squared norm. -/
theorem arr0_3 (c : Dev nD) :
    (dat0 (F := Ideal) V c).arrAt 3 cfg0.N = fun y => Cert.Triplet.psq (toMat (V c main_arg1)) (y 0) :=
  (dat0 V c).arrAt_eq_of_cover 3 _ (fun t _ => wrote0_3 V c t) cover0_3

/-! ## The distances of the aligned pairs (window 4) -/

/-- What point `t` writes back is block `t` of the aligned pairs' distances. -/
theorem wrote0_4 (c : Dev nD) (t : Fin cfg0.N) :
    (dat0 (F := Ideal) V c).flushed 4 t
      = ((cfg0.win 4).blk t).view.read (Elt Ideal)
          (fun y : S4096x1.Idx => posd (toMat (V c main_arg0)) (toMat (V c main_arg1)) (y 0)) := by
  show (cfg0.win 4).cut (grid0.coords t) ((dat0 V c).after 4 t) = _
  rw [after0_4]
  unfold out0_4
  rw [View.canon_unit_zero zeroOff0]
  simp only [View.ld_unit_zero (S := S1024x512) zeroOff0]
  obtain ⟨-, -, -, -, -, -, -, -, e0, e1⟩ := blockIdx0 t
  funext j
  obtain ⟨r, u, rfl⟩ : ∃ (r : Fin 1024) (u : Fin 1), j = ix2 r u := ⟨j 0, j 1, eq_ix2 j⟩
  show k0_pay3 (iblk0 V c 0 t) (iblk0 V c 1 t) (ix2 r u)
    = posd (toMat (V c main_arg0)) (toMat (V c main_arg1)) ((((cfg0.win 4).blk t).view.emb (ix2 r u)) 0)
  have hi : ((((cfg0.win 4).blk t).view.emb (ix2 r u)) 0).val = 1024 * t.val + r.val := by
    show win0_4.index t (0 : Fin 2) * 1024 + 1 * r.val = 1024 * t.val + r.val
    rw [e0]; omega
  refine dist_row (iblk0 V c 0 t) (iblk0 V c 1 t) (toMat (V c main_arg0)) (toMat (V c main_arg1)) _ r u
    (fun d => ?_) (fun d => ?_)
  · exact sketchBlk_apply V c t r d _ hi
  · exact photoBlk_apply V c t r d _ hi

/-- The same for the third output's blocks. -/
theorem mem_blk0_4 (t : Fin cfg0.N) (i : S4096x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v0_2).slice (win0_4.rect t)).set ↔ _
  rw [View.set_slice_whole, Rect.mem_set_unit]
  exact Iff.rfl

/-- Row `i` lies in the block of point `i / 1024`. -/
theorem cover0_4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 4 := N_0
  obtain ⟨t, ht⟩ : ∃ t : Fin cfg0.N, t.val = (i 0).val / 1024 := ⟨⟨(i 0).val / 1024, by rw [hN]; omega⟩, rfl⟩
  obtain ⟨-, -, -, -, -, -, -, -, e0, e1⟩ := blockIdx0 t
  refine ⟨t, flush0_4 t, ?_⟩
  rw [mem_blk0_4]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1 ≤ (i 1).val ∧ (i 1).val < win0_4.index t (1 : Fin 2) * 1 + 1
    rw [e1]; omega

/-- After the region the third output array holds the distance of every aligned sketch and photo row. -/
theorem arr0_4 (c : Dev nD) :
    (dat0 (F := Ideal) V c).arrAt 4 cfg0.N
      = fun y => Cert.Triplet.posd (toMat (V c main_arg0)) (toMat (V c main_arg1)) (y 0) :=
  (dat0 V c).arrAt_eq_of_cover 4 _ (fun t _ => wrote0_4 V c t) cover0_4

end Cert.KernelIdeal.Tri
end
-- ==== Proof.KITile.lean ====
/-
  The second kernel region (the tile pass): what its body computes, read entry by entry over the extended reals.

  The region walks the 8 × 8 grid of 512 × 512 tiles of the 4096 × 4096 table of triplet terms. At grid point
  `(i0, i1)` the body forms the tile whose entry `(r, cc)` belongs to photo row `i0·512 + r` and sketch row
  `i1·512 + cc`:
    * zero on the diagonal of the table, that is where `i0·512 + r = i1·512 + cc` (two 32-bit words are compared;
      both numbers stay below 4096, so the words are equal exactly when the numbers are);
    * elsewhere `(posd cc − √ max((psq r + ssq cc) − 2 · ⟨photo r, sketch cc⟩, 0)) + margin`, the inner product being the
      block product contracted over the 512 features into a zero start, the squared norms and the aligned distance
      being one column and two rows spread over the tile.
  It then adds to a column of 512 running sums, row by row, the sum over the tile's row of the entries' positive
  parts; the column is reset to zero at the first tile of a row of tiles.

  Three statements say this: `pay2_apply` (the reset is zero), `pay1_apply` (the step on one row), `pay3_apply`
  (the tile's entry). The literals 2 and the margin stay the binary words of the specification.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import proofs.«115998_j11227044511928_1_alg».proof.Proof.TripletSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Triplet Idealize.ShloMosaic.ValueIdx

variable {F : FTy → Type} [FloatOps F]

local notation "𝕄" => MT nD τ sig Unit (Elt F) ℕ (UR sig nD τ) ℕ

/-! ## Layout operations at an index -/

/-- A vector of `a` entries cast to one column reads, at row `p`, entry `p`. -/
theorem tile_cast_col {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over many: an `[a, 1]` array broadcast to `[a, b]` reads, at `(p, c)`, the column's entry `p`. -/
theorem tile_bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a lane sum inserts coordinate `c` at, in row `p`, is `(p, c)`. -/
theorem tile_lift (h : S512x512.Reduces [1] S512) (p c : Fin 512) : h.lift (ix1 p) c = ix2 p c := by
  funext a
  apply Fin.ext
  match a with
  | ⟨0, _⟩ => rfl
  | ⟨1, _⟩ => rfl

/-- The lane sum of a 512 × 512 block at row `p` is the sum of the row's entries. -/
theorem tile_rowsum (x : FVec Ideal S512x512 .f32) (h : S512x512.Reduces [1] S512) (hφ : FKind.Formats .f32)
    (hacc : (0x00000000#32 : BitVec 32) = FKind.add.neutral .f32 hφ) (p : Fin 512) :
    multiReduction .add [1] S512 x 0x00000000#32 h hφ hacc (ix1 p) = ∑ c : Fin 512, x (ix2 p c) := by
  refine (Ideal.multiReduction_add_single x 0x00000000#32 h hφ hacc (ix1 p)).trans ?_
  exact Finset.sum_congr rfl fun c _ => congrArg x (tile_lift h p c)

/-! ## The accumulator's reset and step -/

/-- The reset value is zero everywhere. -/
theorem pay2_apply (y : S512x1.Idx) : k1_pay2 (F := Ideal) y = 0 := by
  unfold k1_pay2
  refine (congrFun (shapeCast_self _ shapeCasts_S512x1_S512x1) y).trans ?_
  exact Ideal.ofBits_zero_f32

/-- The step adds to row `r`'s entry the row sum of the tile's positive parts. -/
theorem pay1_apply (T : FVec Ideal S512x512 .f32) (prev : Vec Ideal S512x1 .f32) (r : Fin 512) :
    k1_pay1 (F := Ideal) T prev (ix2 r 0) = prev (ix2 r 0) + ∑ cc : Fin 512, max (T (ix2 r cc)) 0 := by
  unfold k1_pay1
  refine (congrFun (shapeCast_self _ shapeCasts_S512x1_S512x1) (ix2 r 0)).trans ?_
  refine (addf_apply _ _ _).trans ?_
  refine congrArg (prev (ix2 r 0) + ·) ?_
  refine (tile_cast_col _ _ r 0).trans ?_
  refine (tile_rowsum _ _ _ _ r).trans ?_
  refine Finset.sum_congr rfl fun cc _ => ?_
  refine (maximumf_apply _ _ _).trans ?_
  exact congrArg (max (T (ix2 r cc))) Ideal.ofBits_zero_f32

/-! ## The diagonal mask: two 32-bit words compared -/

/-- A grid coordinate below 8 times 512 plus an offset below 512, computed on 32-bit words, is the word of the number: nothing wraps. -/
theorem tile_word (a p : ℕ) (ha : a < 8) (hp : p < 512) :
    IntOp.addi (Scalar.muli (BitVec.ofNat 32 a) 512#32) (BitVec.ofNat 32 p) = BitVec.ofNat 32 (a * 512 + p) := by
  apply BitVec.eq_of_toNat_eq
  show ((BitVec.ofNat 32 a * 512#32) + BitVec.ofNat 32 p).toNat = _
  rw [BitVec.toNat_add, BitVec.toNat_mul, BitVec.toNat_ofNat, BitVec.toNat_ofNat, BitVec.toNat_ofNat, BitVec.toNat_ofNat]
  rw [Nat.mod_eq_of_lt (show a < 2 ^ 32 by omega), Nat.mod_eq_of_lt (show p < 2 ^ 32 by omega),
    Nat.mod_eq_of_lt (show 512 < 2 ^ 32 by omega), Nat.mod_eq_of_lt (show a * 512 < 2 ^ 32 by omega)]

/-- Two such words are equal exactly when the numbers are. -/
theorem tile_word_eq (m n : ℕ) (hm : m < 4096) (hn : n < 4096) :
    IntOp.cmpi .eq (BitVec.ofNat 32 m) (BitVec.ofNat 32 n) = if m = n then 1#1 else 0#1 := by
  unfold IntOp.cmpi
  by_cases h : m = n
  · subst h
    rw [if_pos rfl]
    simp
  · rw [if_neg h]
    have hne : BitVec.ofNat 32 m ≠ BitVec.ofNat 32 n := fun he => h (by
      have := congrArg BitVec.toNat he
      rw [BitVec.toNat_ofNat, BitVec.toNat_ofNat, Nat.mod_eq_of_lt (show m < 2 ^ 32 by omega),
        Nat.mod_eq_of_lt (show n < 2 ^ 32 by omega)] at this
      exact this)
    rw [beq_eq_false_iff_ne.mpr hne]
    rfl

/-- The mask at `(r, cc)` of the tile at grid point `i`: set exactly where the global row equals the global column. -/
theorem tile_mask (i : grid1.Coords) (r cc : Fin 512) :
    cmpi .eq (addi (broadcast S512x512 (Scalar.muli (BitVec.ofNat 32 (i 0).val) 512#32)) (iota .tc S512x512 32 [0] iota_S512x512_d0_w32))
        (addi (broadcast S512x512 (Scalar.muli (BitVec.ofNat 32 (i 1).val) 512#32)) (iota .tc S512x512 32 [1] iota_S512x512_d1_w32)) (ix2 r cc)
      = if (i 0).val * 512 + r.val = (i 1).val * 512 + cc.val then 1#1 else 0#1 := by
  have h0 : (i 0).val < 8 := (i 0).isLt
  have h1 : (i 1).val < 8 := (i 1).isLt
  have hr := r.isLt
  have hc := cc.isLt
  show IntOp.cmpi .eq (IntOp.addi (Scalar.muli (BitVec.ofNat 32 (i 0).val) 512#32) (iota .tc S512x512 32 [0] iota_S512x512_d0_w32 (ix2 r cc)))
      (IntOp.addi (Scalar.muli (BitVec.ofNat 32 (i 1).val) 512#32) (iota .tc S512x512 32 [1] iota_S512x512_d1_w32 (ix2 r cc))) = _
  rw [iota_single_apply, iota_single_apply]
  show IntOp.cmpi .eq (IntOp.addi (Scalar.muli (BitVec.ofNat 32 (i 0).val) 512#32) (BitVec.ofNat 32 r.val))
      (IntOp.addi (Scalar.muli (BitVec.ofNat 32 (i 1).val) 512#32) (BitVec.ofNat 32 cc.val)) = _
  rw [tile_word _ _ h0 hr, tile_word _ _ h1 hc]
  exact tile_word_eq _ _ (by omega) (by omega)

/-! ## The Gram tile: the product contracted over the features -/

theorem tile_lhs_0 (j : S512x512.Idx) (q : dot_S512x512_S512x512_S512x512_1_1_0_0_n_n.contr.Idx) :
    (dot_S512x512_S512x512_S512x512_1_1_0_0_n_n.lhsIdx j q 0).val = (j 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem tile_lhs_1 (j : S512x512.Idx) (q : dot_S512x512_S512x512_S512x512_1_1_0_0_n_n.contr.Idx) :
    (dot_S512x512_S512x512_S512x512_1_1_0_0_n_n.lhsIdx j q 1).val = (q ⟨0, by decide⟩).val :=
  dot_S512x512_S512x512_S512x512_1_1_0_0_n_n.lhsIdx_val_of_single rfl j q
theorem tile_rhs_0 (j : S512x512.Idx) (q : dot_S512x512_S512x512_S512x512_1_1_0_0_n_n.contr.Idx) :
    (dot_S512x512_S512x512_S512x512_1_1_0_0_n_n.rhsIdx j q 0).val = (j 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem tile_rhs_1 (j : S512x512.Idx) (q : dot_S512x512_S512x512_S512x512_1_1_0_0_n_n.contr.Idx) :
    (dot_S512x512_S512x512_S512x512_1_1_0_0_n_n.rhsIdx j q 1).val = (q ⟨0, by decide⟩).val :=
  dot_S512x512_S512x512_S512x512_1_1_0_0_n_n.rhsIdx_val_of_single rfl j q

/-- The product of the photo block with the sketch block, both contracted along their features into a zero start, reads at `(r, cc)`
    the inner product of photo row `r` with sketch row `cc`. -/
theorem tile_gram (x0 x1 : FVec Ideal S512x512 .bf16) (r cc : Fin 512) :
    matmul dot_S512x512_S512x512_S512x512_1_1_0_0_n_n none x0 x1 (constant (F := Ideal) S512x512 .f32 0x00000000#32) (ix2 r cc)
      = ∑ d : Fin 512, x0 (ix2 r d) * x1 (ix2 cc d) := by
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 r cc) ((contrEquiv1 dot_S512x512_S512x512_S512x512_1_1_0_0_n_n 512 rfl rfl).symm k) = ix2 r k := funext fun a => Fin.ext (by
    match a with
    | ⟨0, _⟩ => exact tile_lhs_0 _ _
    | ⟨1, _⟩ => exact (tile_lhs_1 _ _).trans hk)
  have er : dot_S512x512_S512x512_S512x512_1_1_0_0_n_n.rhsIdx (ix2 r cc) ((contrEquiv1 dot_S512x512_S512x512_S512x512_1_1_0_0_n_n 512 rfl rfl).symm k) = ix2 cc k := funext fun a => Fin.ext (by
    match a with
    | ⟨0, _⟩ => exact tile_rhs_0 _ _
    | ⟨1, _⟩ => exact (tile_rhs_1 _ _).trans hk)
  rw [el, er]

/-! ## The tile of triplet terms -/

/-- The tile at grid point `i` reads, at `(r, cc)`: zero where the global row equals the global column; elsewhere the aligned distance
    of sketch `cc`, less the distance of photo `r` to sketch `cc` (by the squared norms and the inner product, clamped at zero), plus
    the margin. -/
theorem pay3_apply (i : grid1.Coords) (x0 x1 : Vec Ideal S512x512 .bf16) (x2 : Vec Ideal S512x1 .f32) (x3 x4 : Vec Ideal S1x512 .f32) (r cc : Fin 512) :
    k1_pay3 (F := Ideal) i x0 x1 x2 x3 x4 (ix2 r cc)
      = if (i 0).val * 512 + r.val = (i 1).val * 512 + cc.val then 0
        else ((x4 (ix2 0 cc) - Ideal.sqrt (max ((x2 (ix2 r 0) + x3 (ix2 0 cc)) - Cert.Triplet.two * ∑ d : Fin 512, x0 (ix2 r d) * x1 (ix2 cc d)) 0)) + Cert.Triplet.margin) := by
  have hm := tile_mask i r cc
  have hg := tile_gram x0 x1 r cc
  have h2 : broadcastTo S512x512 x2 broadcasts_S512x1_S512x512 (ix2 r cc) = x2 (ix2 r 0) := tile_bcast_col x2 _ r cc
  have h3 : broadcastTo S512x512 x3 broadcasts_S1x512_S512x512 (ix2 r cc) = x3 (ix2 0 cc) := broadcastTo_1b_ab_apply x3 _ r cc
  have h4 : broadcastTo S512x512 x4 broadcasts_S1x512_S512x512 (ix2 r cc) = x4 (ix2 0 cc) := broadcastTo_1b_ab_apply x4 _ r cc
  unfold k1_pay3
  simp only [shapeCast_self]
  refine (select_apply _ _ _ _).trans ?_
  rw [hm]
  by_cases hd : (i 0).val * 512 + r.val = (i 1).val * 512 + cc.val
  · rw [if_pos hd, if_pos hd, select_one]
    exact Ideal.ofBits_zero_f32
  · rw [if_neg hd, if_neg hd, select_zero]
    show (broadcastTo S512x512 x4 broadcasts_S1x512_S512x512 (ix2 r cc)
        - Ideal.sqrt (max ((broadcastTo S512x512 x2 broadcasts_S512x1_S512x512 (ix2 r cc) + broadcastTo S512x512 x3 broadcasts_S1x512_S512x512 (ix2 r cc))
            - Ideal.ofBits .f32 0x40000000#32 * matmul dot_S512x512_S512x512_S512x512_1_1_0_0_n_n none x0 x1 (constant (F := Ideal) S512x512 .f32 0x00000000#32) (ix2 r cc))
          (Ideal.ofBits .f32 0x00000000#32))) + Ideal.ofBits .f32 0x3E99999A#32 = _
    rw [hg, h2, h3, h4, Ideal.ofBits_zero_f32]
    rfl

end Cert.KernelIdeal.Tri

end
-- ==== Proof.TripletRow.lean ====
/-
  The column of row sums the pair pass writes, as ONE function of the five arrays it reads: for row `i`,
  Σ_j max(t i j, 0) with t zero on the diagonal and (pd j − √max((pq i + sq j) − 2·Σ_d ph i d · sk j d, 0)) + margin off it.
  (`ph`, `sk`: the photo and sketch arrays; `pq`: the photo rows' squared norms as a column; `sq`, `pd`: the sketch
  rows' squared norms and the aligned distances as rows.)
-/
import proofs.«115998_j11227044511928_1_alg».proof.Proof.TripletSpec

noncomputable section

namespace Cert.Triplet

open Idealize.ShloMosaic Idealize.ShloMosaic.ValueIdx

/-- The hinged triplet terms of row `i` summed over all columns, from the pair pass's five input arrays. -/
def pairRow (ph sk : (⟨2, ![4096, 512]⟩ : Shape).Idx → EReal) (pq : (⟨2, ![4096, 1]⟩ : Shape).Idx → EReal)
    (sq pd : (⟨2, ![1, 4096]⟩ : Shape).Idx → EReal) : (⟨2, ![4096, 1]⟩ : Shape).Idx → EReal :=
  fun y =>
    let i : Fin 4096 := ⟨(y 0).val, idx2_lt0 y⟩
    ∑ j : Fin 4096, max (if i = j then 0 else
      ((pd (ix2 0 j) - Ideal.sqrt (max ((pq (ix2 i 0) + sq (ix2 0 j)) - two * ∑ d : Fin 512, ph (ix2 i d) * sk (ix2 j d)) 0)) + margin)) 0

end Cert.Triplet

end
-- ==== Proof.KIValue1.lean ====
/-
  The second kernel region (the pair pass) at the extended reals: what its output column holds after the region,
  as ONE function of the five arrays it reads.

  The region walks an 8 × 8 grid of 512 × 512 tiles of the 4096 × 4096 pair matrix; point `t = 8·it + jt` handles row tile
  `it` and column tile `jt`. Entry `(r, cc)` of the tile is the triplet term of global photo row `i = 512·it + r` and global
  sketch row `j = 512·jt + cc`: zero when `i = j`, otherwise `(pd j − √max((pq i + sq j) − 2·Σ_d ph i d · sk j d, 0)) + margin`,
  each of the five blocks read off its array at block index × block size + the coordinate inside the block. The scratch
  column is reset at `jt = 0` and receives each tile's hinged row sums, so after point `t` it holds at row `r` the hinged
  terms of row `i` summed over the columns `j < 512·(jt + 1)` (induction on the point; the sum over the columns is
  carried as a sum over an initial segment of the naturals, one stretch of 512 added per point). The output block is
  written back at `jt = 7` only, where that segment is all of `j < 4096`: the block of the specification's column
  `Cert.Triplet.pairRow`. The eight flushed blocks cover the 4096 rows (row `i` by point `8·(i / 512) + 7`), so the array
  ends holding the specification's column.

  The three payloads read at an index are taken as hypotheses, in the form another module proves them.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import proofs.«115998_j11227044511928_1_alg».proof.Proof.KIData1
import proofs.«115998_j11227044511928_1_alg».proof.Proof.TripletRow
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Mathlib.Data.Fintype.BigOperators
import Mathlib.Algebra.BigOperators.Group.Finset.Basic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Triplet Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt Ideal) ((c : Thread nD τ).loc b))

namespace PairValue

/-! ## The five arrays and the triplet term -/

/-- The photo array, the sketch array, the photo rows' squared norms (a column), the sketch rows' squared norms and
    the aligned distances (rows), as the region finds them. -/
abbrev phA (c : Dev nD) : (⟨2, ![4096, 512]⟩ : Shape).Idx → EReal := V c main_v4
abbrev skA (c : Dev nD) : (⟨2, ![4096, 512]⟩ : Shape).Idx → EReal := V c main_v3
abbrev pqA (c : Dev nD) : (⟨2, ![4096, 1]⟩ : Shape).Idx → EReal := V c main_v0_1
abbrev sqA (c : Dev nD) : (⟨2, ![1, 4096]⟩ : Shape).Idx → EReal := V c main_v1
abbrev pdA (c : Dev nD) : (⟨2, ![1, 4096]⟩ : Shape).Idx → EReal := V c main_v2

/-- The triplet term of photo row `i` and sketch row `j`, the diagonal zeroed, before the hinge. -/
def cell (c : Dev nD) (i j : Fin 4096) : EReal :=
  if i = j then 0 else
    ((pdA V c (ix2 0 j) - Ideal.sqrt (max ((pqA V c (ix2 i 0) + sqA V c (ix2 0 j)) - two * ∑ d : Fin 512, phA V c (ix2 i d) * skA V c (ix2 j d)) 0)) + margin)

/-- The hinged term at a pair of naturals: zero outside the 4096 × 4096 square. -/
def hcell (c : Dev nD) (i j : ℕ) : EReal :=
  if h : i < 4096 ∧ j < 4096 then max (cell V c ⟨i, h.1⟩ ⟨j, h.2⟩) 0 else 0

/-- The specification's column at an index is the row's hinged terms summed. -/
theorem pairRow_apply (c : Dev nD) (k : (⟨2, ![4096, 1]⟩ : Shape).Idx) :
    pairRow (phA V c) (skA V c) (pqA V c) (sqA V c) (pdA V c) k
      = ∑ j : Fin 4096, max (cell V c ⟨(k 0).val, idx2_lt0 k⟩ j) 0 := rfl

/-- The row's hinged terms summed, as a sum over the naturals below 4096. -/
theorem rowsum_range (c : Dev nD) (i : Fin 4096) :
    ∑ j : Fin 4096, max (cell V c i j) 0 = ∑ j ∈ Finset.range 4096, hcell V c i.val j := by
  rw [← Fin.sum_univ_eq_sum_range (fun j => hcell V c i.val j) 4096]
  refine Finset.sum_congr rfl fun j _ => ?_
  unfold hcell
  rw [dif_pos ⟨i.isLt, j.isLt⟩]

/-! ## The index maps, decided over the grid -/

theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = 0 ∧ win1_4.index t (1 : Fin 2) = t.val % 8
    ∧ win1_5.index t (0 : Fin 2) = t.val / 8 ∧ win1_5.index t (1 : Fin 2) = 0
    ∧ ((grid1.coords t) 0).val = t.val / 8 ∧ ((grid1.coords t) 1).val = t.val % 8 :=
  (by decide +kernel : ∀ t : Fin grid1.N, _)

/-! ## Each input block, read where its rectangle says -/

/-- The five input blocks at point `t`, at their literal types. -/
abbrev phB (c : Dev nD) (t : Fin cfg1.N) : Vec Ideal S512x512 .bf16 := iblk1 V c 0 t
abbrev skB (c : Dev nD) (t : Fin cfg1.N) : Vec Ideal S512x512 .bf16 := iblk1 V c 1 t
abbrev pqB (c : Dev nD) (t : Fin cfg1.N) : Vec Ideal S512x1 .f32 := iblk1 V c 2 t
abbrev sqB (c : Dev nD) (t : Fin cfg1.N) : Vec Ideal S1x512 .f32 := iblk1 V c 3 t
abbrev pdB (c : Dev nD) (t : Fin cfg1.N) : Vec Ideal S1x512 .f32 := iblk1 V c 4 t

theorem blk0_apply (c : Dev nD) (t : Fin cfg1.N) (r d : Fin 512) (k : (⟨2, ![4096, 512]⟩ : Shape).Idx)
    (hk0 : (k 0).val = 512 * (t.val / 8) + r.val) (hk1 : (k 1).val = d.val) :
    phB V c t (ix2 r d) = phA V c k := by
  obtain ⟨e0, e1, -⟩ := idx_facts1 t
  unfold phB iblk1
  rw [View.read_apply]
  show V c main_v4 _ = V c main_v4 _
  congr 1
  funext a
  apply Fin.ext
  match a with
  | ⟨0, _⟩ => show win1_0.index t 0 * 512 + 1 * r.val = (k 0).val; rw [e0, hk0]; omega
  | ⟨1, _⟩ => show win1_0.index t 1 * 512 + 1 * d.val = (k 1).val; rw [e1, hk1]; omega

theorem blk1_apply (c : Dev nD) (t : Fin cfg1.N) (r d : Fin 512) (k : (⟨2, ![4096, 512]⟩ : Shape).Idx)
    (hk0 : (k 0).val = 512 * (t.val % 8) + r.val) (hk1 : (k 1).val = d.val) :
    skB V c t (ix2 r d) = skA V c k := by
  obtain ⟨-, -, e0, e1, -⟩ := idx_facts1 t
  unfold skB iblk1
  rw [View.read_apply]
  show V c main_v3 _ = V c main_v3 _
  congr 1
  funext a
  apply Fin.ext
  match a with
  | ⟨0, _⟩ => show win1_1.index t 0 * 512 + 1 * r.val = (k 0).val; rw [e0, hk0]; omega
  | ⟨1, _⟩ => show win1_1.index t 1 * 512 + 1 * d.val = (k 1).val; rw [e1, hk1]; omega

theorem blk2_apply (c : Dev nD) (t : Fin cfg1.N) (r : Fin 512) (k : (⟨2, ![4096, 1]⟩ : Shape).Idx)
    (hk0 : (k 0).val = 512 * (t.val / 8) + r.val) :
    pqB V c t (ix2 r 0) = pqA V c k := by
  obtain ⟨-, -, -, -, e0, e1, -⟩ := idx_facts1 t
  have hk1 : (k 1).val = 0 := by have := idx2_lt1 k; omega
  unfold pqB iblk1
  rw [View.read_apply]
  show V c main_v0_1 _ = V c main_v0_1 _
  congr 1
  funext a
  apply Fin.ext
  match a with
  | ⟨0, _⟩ => show win1_2.index t 0 * 512 + 1 * r.val = (k 0).val; rw [e0, hk0]; omega
  | ⟨1, _⟩ => show win1_2.index t 1 * 1 + 1 * 0 = (k 1).val; rw [e1, hk1]

theorem blk3_apply (c : Dev nD) (t : Fin cfg1.N) (cc : Fin 512) (k : (⟨2, ![1, 4096]⟩ : Shape).Idx)
    (hk1 : (k 1).val = 512 * (t.val % 8) + cc.val) :
    sqB V c t (ix2 0 cc) = sqA V c k := by
  obtain ⟨-, -, -, -, -, -, e0, e1, -⟩ := idx_facts1 t
  have hk0 : (k 0).val = 0 := by have := idx2_lt0 k; omega
  unfold sqB iblk1
  rw [View.read_apply]
  show V c main_v1 _ = V c main_v1 _
  congr 1
  funext a
  apply Fin.ext
  match a with
  | ⟨0, _⟩ => show win1_3.index t 0 * 1 + 1 * 0 = (k 0).val; rw [e0, hk0]
  | ⟨1, _⟩ => show win1_3.index t 1 * 512 + 1 * cc.val = (k 1).val; rw [e1, hk1]; omega

theorem blk4_apply (c : Dev nD) (t : Fin cfg1.N) (cc : Fin 512) (k : (⟨2, ![1, 4096]⟩ : Shape).Idx)
    (hk1 : (k 1).val = 512 * (t.val % 8) + cc.val) :
    pdB V c t (ix2 0 cc) = pdA V c k := by
  obtain ⟨-, -, -, -, -, -, -, -, e0, e1, -⟩ := idx_facts1 t
  have hk0 : (k 0).val = 0 := by have := idx2_lt0 k; omega
  unfold pdB iblk1
  rw [View.read_apply]
  show V c main_v2 _ = V c main_v2 _
  congr 1
  funext a
  apply Fin.ext
  match a with
  | ⟨0, _⟩ => show win1_4.index t 0 * 1 + 1 * 0 = (k 0).val; rw [e0, hk0]
  | ⟨1, _⟩ => show win1_4.index t 1 * 512 + 1 * cc.val = (k 1).val; rw [e1, hk1]; omega

/-! ## The tile at an entry -/

/-- Row `r` of row tile `t / 8` and column `cc` of column tile `t % 8`, in the whole pair matrix. -/
theorem row_lt (t : Fin cfg1.N) (r : Fin 512) : 512 * (t.val / 8) + r.val < 4096 := by
  have h : t.val < 64 := lt_of_lt_of_eq t.isLt N_1
  omega
theorem col_lt (t : Fin cfg1.N) (cc : Fin 512) : 512 * (t.val % 8) + cc.val < 4096 := by omega

/-- The tile's entry `(r, cc)` at point `t` is the triplet term of global row `512·(t / 8) + r` and global column
    `512·(t % 8) + cc`, read off the five arrays. -/
theorem tile1_apply
    (hp3 : ∀ (i : grid1.Coords) (x0 x1 : Vec Ideal S512x512 .bf16) (x2 : Vec Ideal S512x1 .f32) (x3 x4 : Vec Ideal S1x512 .f32) (r cc : Fin 512),
      k1_pay3 (F := Ideal) i x0 x1 x2 x3 x4 (ix2 r cc) = if (i 0).val * 512 + r.val = (i 1).val * 512 + cc.val then 0
        else ((x4 (ix2 0 cc) - Ideal.sqrt (max ((x2 (ix2 r 0) + x3 (ix2 0 cc)) - Cert.Triplet.two * ∑ d : Fin 512, x0 (ix2 r d) * x1 (ix2 cc d)) 0)) + Cert.Triplet.margin))
    (c : Dev nD) (t : Fin cfg1.N) (r cc : Fin 512) :
    tile1 V c t (ix2 r cc) = cell V c ⟨512 * (t.val / 8) + r.val, row_lt t r⟩ ⟨512 * (t.val % 8) + cc.val, col_lt t cc⟩ := by
  obtain ⟨-, -, -, -, -, -, -, -, -, -, -, -, g0, g1⟩ := idx_facts1 t
  unfold tile1 cell
  refine (hp3 (grid1.coords t) (phB V c t) (skB V c t) (pqB V c t) (sqB V c t) (pdB V c t) r cc).trans ?_
  rw [g0, g1]
  have hcond : (t.val / 8 * 512 + r.val = t.val % 8 * 512 + cc.val)
      ↔ ((⟨512 * (t.val / 8) + r.val, row_lt t r⟩ : Fin 4096) = ⟨512 * (t.val % 8) + cc.val, col_lt t cc⟩) := by
    rw [Fin.mk.injEq]; omega
  refine if_congr hcond rfl ?_
  have hsum : ∑ d : Fin 512, phB V c t (ix2 r d) * skB V c t (ix2 cc d)
      = ∑ d : Fin 512, phA V c (ix2 ⟨512 * (t.val / 8) + r.val, row_lt t r⟩ d) * skA V c (ix2 ⟨512 * (t.val % 8) + cc.val, col_lt t cc⟩ d) :=
    Finset.sum_congr rfl fun d _ => by
      rw [blk0_apply V c t r d (ix2 ⟨512 * (t.val / 8) + r.val, row_lt t r⟩ d) rfl rfl,
        blk1_apply V c t cc d (ix2 ⟨512 * (t.val % 8) + cc.val, col_lt t cc⟩ d) rfl rfl]
  rw [blk4_apply V c t cc (ix2 0 ⟨512 * (t.val % 8) + cc.val, col_lt t cc⟩) rfl,
    blk2_apply V c t r (ix2 ⟨512 * (t.val / 8) + r.val, row_lt t r⟩ 0) rfl,
    blk3_apply V c t cc (ix2 0 ⟨512 * (t.val % 8) + cc.val, col_lt t cc⟩) rfl, hsum]

/-! ## The accumulator, point by point -/

/-- The tile's hinged row sum at row `r` is a stretch of 512 consecutive terms of the row's sum over the naturals. -/
theorem tile_rowsum
    (hp3 : ∀ (i : grid1.Coords) (x0 x1 : Vec Ideal S512x512 .bf16) (x2 : Vec Ideal S512x1 .f32) (x3 x4 : Vec Ideal S1x512 .f32) (r cc : Fin 512),
      k1_pay3 (F := Ideal) i x0 x1 x2 x3 x4 (ix2 r cc) = if (i 0).val * 512 + r.val = (i 1).val * 512 + cc.val then 0
        else ((x4 (ix2 0 cc) - Ideal.sqrt (max ((x2 (ix2 r 0) + x3 (ix2 0 cc)) - Cert.Triplet.two * ∑ d : Fin 512, x0 (ix2 r d) * x1 (ix2 cc d)) 0)) + Cert.Triplet.margin))
    (c : Dev nD) (t : Fin cfg1.N) (r : Fin 512) :
    ∑ cc : Fin 512, max (tile1 V c t (ix2 r cc)) 0
      = ∑ x ∈ Finset.range 512, hcell V c (512 * (t.val / 8) + r.val) (512 * (t.val % 8) + x) := by
  rw [← Fin.sum_univ_eq_sum_range (fun x => hcell V c (512 * (t.val / 8) + r.val) (512 * (t.val % 8) + x)) 512]
  refine Finset.sum_congr rfl fun cc _ => ?_
  rw [tile1_apply V hp3 c t r cc]
  unfold hcell
  rw [dif_pos ⟨row_lt t r, col_lt t cc⟩]

/-- At the first column tile of a row tile the scratch column holds the first 512 terms of each row's sum. -/
theorem acc_reset_val
    (hp2 : ∀ y : S512x1.Idx, k1_pay2 (F := Ideal) y = 0)
    (hp1 : ∀ (T : FVec Ideal S512x512 .f32) (prev : Vec Ideal S512x1 .f32) (r : Fin 512), k1_pay1 (F := Ideal) T prev (ix2 r 0) = prev (ix2 r 0) + ∑ cc : Fin 512, max (T (ix2 r cc)) 0)
    (hp3 : ∀ (i : grid1.Coords) (x0 x1 : Vec Ideal S512x512 .bf16) (x2 : Vec Ideal S512x1 .f32) (x3 x4 : Vec Ideal S1x512 .f32) (r cc : Fin 512),
      k1_pay3 (F := Ideal) i x0 x1 x2 x3 x4 (ix2 r cc) = if (i 0).val * 512 + r.val = (i 1).val * 512 + cc.val then 0
        else ((x4 (ix2 0 cc) - Ideal.sqrt (max ((x2 (ix2 r 0) + x3 (ix2 0 cc)) - Cert.Triplet.two * ∑ d : Fin 512, x0 (ix2 r d) * x1 (ix2 cc d)) 0)) + Cert.Triplet.margin))
    (c : Dev nD) (t : Fin cfg1.N) (h : t.val % 8 = 0) (r : Fin 512) :
    accAt1 V c t.val t.isLt (ix2 r 0)
      = ∑ j ∈ Finset.range (512 * (t.val % 8 + 1)), hcell V c (512 * (t.val / 8) + r.val) j := by
  rw [accAt1_reset V c t h]
  refine (hp1 (tile1 V c t) (k1_pay2 (F := Ideal)) r).trans ?_
  rw [hp2, zero_add, tile_rowsum V hp3 c t r, h]
  simp only [Nat.mul_zero, Nat.zero_add, Nat.mul_one]

/-- After point `n` the scratch column holds, at row `r`, the terms of global row `512·(n / 8) + r` over the columns
    below `512·(n % 8 + 1)`: the column tiles `0 … n % 8`. -/
theorem acc_inv
    (hp2 : ∀ y : S512x1.Idx, k1_pay2 (F := Ideal) y = 0)
    (hp1 : ∀ (T : FVec Ideal S512x512 .f32) (prev : Vec Ideal S512x1 .f32) (r : Fin 512), k1_pay1 (F := Ideal) T prev (ix2 r 0) = prev (ix2 r 0) + ∑ cc : Fin 512, max (T (ix2 r cc)) 0)
    (hp3 : ∀ (i : grid1.Coords) (x0 x1 : Vec Ideal S512x512 .bf16) (x2 : Vec Ideal S512x1 .f32) (x3 x4 : Vec Ideal S1x512 .f32) (r cc : Fin 512),
      k1_pay3 (F := Ideal) i x0 x1 x2 x3 x4 (ix2 r cc) = if (i 0).val * 512 + r.val = (i 1).val * 512 + cc.val then 0
        else ((x4 (ix2 0 cc) - Ideal.sqrt (max ((x2 (ix2 r 0) + x3 (ix2 0 cc)) - Cert.Triplet.two * ∑ d : Fin 512, x0 (ix2 r d) * x1 (ix2 cc d)) 0)) + Cert.Triplet.margin))
    (c : Dev nD) : ∀ (n : ℕ) (hn : n < cfg1.N) (r : Fin 512),
    accAt1 V c n hn (ix2 r 0) = ∑ j ∈ Finset.range (512 * (n % 8 + 1)), hcell V c (512 * (n / 8) + r.val) j
  | 0, hn, r => acc_reset_val V hp2 hp1 hp3 c ⟨0, hn⟩ rfl r
  | n + 1, hn, r => by
    by_cases h : (n + 1) % 8 = 0
    · exact acc_reset_val V hp2 hp1 hp3 c ⟨n + 1, hn⟩ h r
    · have ih := acc_inv hp2 hp1 hp3 c n (Nat.lt_of_succ_lt hn) r
      have e : accAt1 V c (n + 1) hn (ix2 r 0)
          = accAt1 V c n (Nat.lt_of_succ_lt hn) (ix2 r 0) + ∑ cc : Fin 512, max (tile1 V c ⟨n + 1, hn⟩ (ix2 r cc)) 0 :=
        (congrFun (accAt1_step V c ⟨n + 1, hn⟩ h) (ix2 r 0)).trans (hp1 _ _ r)
      rw [e, ih, tile_rowsum V hp3 c ⟨n + 1, hn⟩ r]
      have h1 : (n + 1) / 8 = n / 8 := by omega
      have h2 : (n + 1) % 8 = n % 8 + 1 := by omega
      show _ + ∑ x ∈ Finset.range 512, hcell V c (512 * ((n + 1) / 8) + r.val) (512 * ((n + 1) % 8) + x) = _
      rw [h1, h2, show 512 * (n % 8 + 1 + 1) = 512 * (n % 8 + 1) + 512 by ring, Finset.sum_range_add]

/-- At the last column tile of a row tile the scratch column holds the specification's column on that row tile. -/
theorem acc_last
    (hp2 : ∀ y : S512x1.Idx, k1_pay2 (F := Ideal) y = 0)
    (hp1 : ∀ (T : FVec Ideal S512x512 .f32) (prev : Vec Ideal S512x1 .f32) (r : Fin 512), k1_pay1 (F := Ideal) T prev (ix2 r 0) = prev (ix2 r 0) + ∑ cc : Fin 512, max (T (ix2 r cc)) 0)
    (hp3 : ∀ (i : grid1.Coords) (x0 x1 : Vec Ideal S512x512 .bf16) (x2 : Vec Ideal S512x1 .f32) (x3 x4 : Vec Ideal S1x512 .f32) (r cc : Fin 512),
      k1_pay3 (F := Ideal) i x0 x1 x2 x3 x4 (ix2 r cc) = if (i 0).val * 512 + r.val = (i 1).val * 512 + cc.val then 0
        else ((x4 (ix2 0 cc) - Ideal.sqrt (max ((x2 (ix2 r 0) + x3 (ix2 0 cc)) - Cert.Triplet.two * ∑ d : Fin 512, x0 (ix2 r d) * x1 (ix2 cc d)) 0)) + Cert.Triplet.margin))
    (c : Dev nD) (t : Fin cfg1.N) (h7 : t.val % 8 = 7) (r : Fin 512) (k : (⟨2, ![4096, 1]⟩ : Shape).Idx)
    (hk : (k 0).val = 512 * (t.val / 8) + r.val) :
    accAt1 V c t.val t.isLt (ix2 r 0) = pairRow (phA V c) (skA V c) (pqA V c) (sqA V c) (pdA V c) k := by
  rw [acc_inv V hp2 hp1 hp3 c t.val t.isLt r, pairRow_apply, rowsum_range, h7]
  show ∑ j ∈ Finset.range 4096, _ = ∑ j ∈ Finset.range 4096, hcell V c (k 0).val j
  rw [hk]

/-! ## From the blocks to the array -/

/-- What a flushing point writes back is its block of the specification's column. -/
theorem flushed1_5_eq
    (hp2 : ∀ y : S512x1.Idx, k1_pay2 (F := Ideal) y = 0)
    (hp1 : ∀ (T : FVec Ideal S512x512 .f32) (prev : Vec Ideal S512x1 .f32) (r : Fin 512), k1_pay1 (F := Ideal) T prev (ix2 r 0) = prev (ix2 r 0) + ∑ cc : Fin 512, max (T (ix2 r cc)) 0)
    (hp3 : ∀ (i : grid1.Coords) (x0 x1 : Vec Ideal S512x512 .bf16) (x2 : Vec Ideal S512x1 .f32) (x3 x4 : Vec Ideal S1x512 .f32) (r cc : Fin 512),
      k1_pay3 (F := Ideal) i x0 x1 x2 x3 x4 (ix2 r cc) = if (i 0).val * 512 + r.val = (i 1).val * 512 + cc.val then 0
        else ((x4 (ix2 0 cc) - Ideal.sqrt (max ((x2 (ix2 r 0) + x3 (ix2 0 cc)) - Cert.Triplet.two * ∑ d : Fin 512, x0 (ix2 r d) * x1 (ix2 cc d)) 0)) + Cert.Triplet.margin))
    (c : Dev nD) (t : Fin cfg1.N) (hf : (cfg1.win 5).flush t = true) :
    (dat1 V c).flushed 5 t
      = ((cfg1.win 5).blk t).view.read (Elt Ideal) (pairRow (phA V c) (skA V c) (pqA V c) (sqA V c) (pdA V c)) := by
  have h7 : t.val % 8 = 7 := (flush1_5 t).mp hf
  obtain ⟨-, -, -, -, -, -, -, -, -, -, e0, e1, -⟩ := idx_facts1 t
  show (cfg1.win 5).cut (grid1.coords t) ((dat1 V c).after 5 t) = _
  rw [after1_5]
  funext y
  have hy0 : (y 0).val < 512 := (y 0).isLt
  have hy1 : (y 1).val < 1 := (y 1).isLt
  have ex : ((cfg1.win 5).xinj (grid1.coords t) y : S512x1.Idx) = ix2 ⟨(y 0).val, hy0⟩ 0 :=
    funext fun a => Fin.ext (by
      match a with
      | ⟨0, _⟩ => rfl
      | ⟨1, _⟩ => show (y 1).val = 0; omega)
  show accAt1 V c t.val t.isLt ((cfg1.win 5).xinj (grid1.coords t) y)
    = pairRow (phA V c) (skA V c) (pqA V c) (sqA V c) (pdA V c) (((cfg1.win 5).blk t).view.emb y)
  refine (congrArg (accAt1 V c t.val t.isLt) ex).trans ?_
  refine acc_last V hp2 hp1 hp3 c t h7 ⟨(y 0).val, hy0⟩ _ ?_
  show win1_5.index t 0 * 512 + 1 * (y 0).val = 512 * (t.val / 8) + (y 0).val
  rw [e0]; omega

/-- Row `i` of the output column lies in the block written back at the last column tile of row tile `i / 512`. -/
theorem cover1_5 (i : (⟨2, ![4096, 1]⟩ : Shape).Idx) :
    ∃ t : Fin cfg1.N, (cfg1.win 5).flush t = true ∧ i ∈ ((cfg1.win 5).blk t).view.set := by
  have hi0 : (i 0).val < 4096 := idx2_lt0 i
  have hi1 : (i 1).val < 1 := idx2_lt1 i
  have hN : cfg1.N = 64 := N_1
  obtain ⟨t, ht⟩ : ∃ t : Fin cfg1.N, t.val = 8 * ((i 0).val / 512) + 7 := ⟨⟨8 * ((i 0).val / 512) + 7, by rw [hN]; omega⟩, rfl⟩
  obtain ⟨-, -, -, -, -, -, -, -, -, -, e0, e1, -⟩ := idx_facts1 t
  refine ⟨t, (flush1_5 t).mpr (by rw [ht]; omega), ?_⟩
  show i ∈ ((View.whole main_v5).slice (win1_5.rect t)).set
  rw [View.set_slice_whole, Rect.mem_set_unit]
  intro a
  match a with
  | ⟨0, _⟩ =>
    show win1_5.index t 0 * 512 ≤ (i 0).val ∧ (i 0).val < win1_5.index t 0 * 512 + 512
    rw [e0, ht]; omega
  | ⟨1, _⟩ =>
    show win1_5.index t 1 * 1 ≤ (i 1).val ∧ (i 1).val < win1_5.index t 1 * 1 + 1
    rw [e1]; omega

end PairValue

/-- The output array after the region is the specification's column of the five input arrays. -/
theorem arr1_5
    (hp2 : ∀ y : S512x1.Idx, k1_pay2 (F := Ideal) y = 0)
    (hp1 : ∀ (T : FVec Ideal S512x512 .f32) (prev : Vec Ideal S512x1 .f32) (r : Fin 512), k1_pay1 (F := Ideal) T prev (ix2 r 0) = prev (ix2 r 0) + ∑ cc : Fin 512, max (T (ix2 r cc)) 0)
    (hp3 : ∀ (i : grid1.Coords) (x0 x1 : Vec Ideal S512x512 .bf16) (x2 : Vec Ideal S512x1 .f32) (x3 x4 : Vec Ideal S1x512 .f32) (r cc : Fin 512),
      k1_pay3 (F := Ideal) i x0 x1 x2 x3 x4 (ix2 r cc) = if (i 0).val * 512 + r.val = (i 1).val * 512 + cc.val then 0
        else ((x4 (ix2 0 cc) - Ideal.sqrt (max ((x2 (ix2 r 0) + x3 (ix2 0 cc)) - Cert.Triplet.two * ∑ d : Fin 512, x0 (ix2 r d) * x1 (ix2 cc d)) 0)) + Cert.Triplet.margin))
    (c : Dev nD) :
    (dat1 (F := Ideal) V c).arrAt 5 cfg1.N = Cert.Triplet.pairRow (V c main_v4) (V c main_v3) (V c main_v0_1) (V c main_v1) (V c main_v2) :=
  (dat1 V c).arrAt_eq_of_cover 5 (pairRow (V c main_v4) (V c main_v3) (V c main_v0_1) (V c main_v1) (V c main_v2))
    (fun t hf => PairValue.flushed1_5_eq V hp2 hp1 hp3 c t hf) PairValue.cover1_5

end Cert.KernelIdeal.Tri

end
-- ==== Proof.KIValue.lean ====
/-
  The value of the whole program over the extended reals: the scalar it ends with is the triplet loss of its two
  argument arrays.

  The closing sum adds, onto zero, every entry of the column of row sums the pair pass leaves. That column is the
  pair pass's function of the five arrays it is entered from: the two argument arrays (a narrowing format change is
  the identity on extended reals), the photo rows' squared norms as the row pass left them, and the sketch rows'
  squared norms and the aligned distances transposed from columns to rows. Read at row `i`, it is the sum over `j`
  of the hinged triplet terms; the sum over `i` of those is the loss.
-/
import proofs.«115998_j11227044511928_1_alg».proof.Proof.Gen.KernelIdeal.Launch
import proofs.«115998_j11227044511928_1_alg».proof.Proof.Gen.KernelIdeal.Skeleton
import proofs.«115998_j11227044511928_1_alg».proof.Proof.Gen.KernelIdeal.Points
import proofs.«115998_j11227044511928_1_alg».proof.Proof.KIChain
import proofs.«115998_j11227044511928_1_alg».proof.Proof.TripletRow
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Triplet Idealize.ShloMosaic.ValueIdx

/-! ## The closing sum and the row sums, over arrays of the literal shapes -/

/-- Summing every entry of a 4096 × 1 column onto the zero word gives the sum of the column's entries. -/
theorem sum_col (x : (⟨2, ![4096, 1]⟩ : Shape).Idx → EReal) (h' : S4096x1.ReducesTo [0, 1] S_) (hu : 0 < S_.numel) :
    (Host.reduceAdd (F := Ideal) (φ := .f32) x (constant (F := Ideal) S_ .f32 0x00000000#32) h' hu : S_.Idx → EReal)
      = fun _ => ∑ i : Fin 4096, x (ix2 i 0) := by
  funext j
  unfold Host.reduceAdd
  rw [Ideal.hostReduceAdd_def, Ideal.hostReduceAdd_total h' (fun b => b.elim0), constant_apply, Ideal.ofBits_zero_f32,
    zero_add, sum_idx2]
  exact Finset.sum_congr rfl fun a _ => Fin.sum_univ_one _

/-- The pair pass's column at row `i`, when its three small inputs are the squared norms and the aligned distances
    of the two large ones: the hinged triplet terms of row `i` summed over the columns. -/
theorem pairRow_hinge (ph sk : (⟨2, ![4096, 512]⟩ : Shape).Idx → EReal) (pq : (⟨2, ![4096, 1]⟩ : Shape).Idx → EReal)
    (sq pd : (⟨2, ![1, 4096]⟩ : Shape).Idx → EReal)
    (hpq : ∀ i : Fin 4096, pq (ix2 i 0) = psq (toMat ph) i)
    (hsq : ∀ j : Fin 4096, sq (ix2 0 j) = ssq (toMat sk) j)
    (hpd : ∀ j : Fin 4096, pd (ix2 0 j) = posd (toMat sk) (toMat ph) j) (i : Fin 4096) :
    pairRow ph sk pq sq pd (ix2 i 0) = ∑ j : Fin 4096, hinge (toMat sk) (toMat ph) i j := by
  unfold pairRow
  refine Finset.sum_congr rfl fun j _ => ?_
  rw [hpq, hsq, hpd]
  rfl

/-! ## The arrays the pair pass is entered from -/

variable (m : (ℓ : Loc nD τ sig) → Buf (Elt Ideal) ℓ)

/-- The sketch array reaches the format change as launched: the row pass only reads it. -/
theorem W1_arg0 (c : Dev nD) : W1 m c (Proc.devRef .tc main_arg0) = m ((c : Thread nD τ).loc main_arg0) :=
  (W1_arr m c 0).trans (((dat0 (V0 m) c).arrAt_in 0 rfl _).trans (A_eq0 (V0 m) c 0))
/-- The photo array likewise. -/
theorem W1_arg1 (c : Dev nD) : W1 m c (Proc.devRef .tc main_arg1) = m ((c : Thread nD τ).loc main_arg1) :=
  (W1_arr m c 1).trans (((dat0 (V0 m) c).arrAt_in 1 rfl _).trans (A_eq0 (V0 m) c 1))

/-- The photo array as the pair pass finds it: narrowed, which changes no extended real. -/
theorem V2_v4 (c : Dev nD) :
    (V2 m c main_v4 : (⟨2, ![4096, 512]⟩ : Shape).Idx → EReal) = m ((c : Thread nD τ).loc main_arg1) := by
  show StableHlo.after hostOps1 (W1 m c) (Proc.devRef .tc main_v4) = _
  after_results
  rw [W1_arg1]
  rfl
/-- The sketch array as the pair pass finds it. -/
theorem V2_v3 (c : Dev nD) :
    (V2 m c main_v3 : (⟨2, ![4096, 512]⟩ : Shape).Idx → EReal) = m ((c : Thread nD τ).loc main_arg0) := by
  show StableHlo.after hostOps1 (W1 m c) (Proc.devRef .tc main_v3) = _
  after_results
  rw [W1_arg0]
  rfl
/-- The photo norms' column as the pair pass finds it: as the row pass left it. -/
theorem V2_v0_1 (c : Dev nD) : V2 m c main_v0_1 = W1 m c (Proc.devRef .tc main_v0_1) := by
  show StableHlo.after hostOps1 (W1 m c) (Proc.devRef .tc main_v0_1) = _
  after_results
/-- The sketch norms' row: the row pass's column transposed. -/
theorem V2_v1 (c : Dev nD) (j : Fin 4096) :
    (V2 m c main_v1 : (⟨2, ![1, 4096]⟩ : Shape).Idx → EReal) (ix2 0 j)
      = (W1 m c (Proc.devRef .tc main_v0_0) : (⟨2, ![4096, 1]⟩ : Shape).Idx → EReal) (ix2 j 0) := by
  show StableHlo.after hostOps1 (W1 m c) (Proc.devRef .tc main_v1) (ix2 0 j) = _
  after_results
  exact transpose_ix2_apply _ _ 0 j
/-- The aligned distances' row: the row pass's column transposed. -/
theorem V2_v2 (c : Dev nD) (j : Fin 4096) :
    (V2 m c main_v2 : (⟨2, ![1, 4096]⟩ : Shape).Idx → EReal) (ix2 0 j)
      = (W1 m c (Proc.devRef .tc main_v0_2) : (⟨2, ![4096, 1]⟩ : Shape).Idx → EReal) (ix2 j 0) := by
  show StableHlo.after hostOps1 (W1 m c) (Proc.devRef .tc main_v2) (ix2 0 j) = _
  after_results
  exact transpose_ix2_apply _ _ 0 j

/-! ## The program's result -/

/-- The scalar the program ends with is the triplet loss of its two argument arrays, given what the two kernel
    regions leave in their output arrays whatever contents they are entered from: the row pass the sketch rows'
    squared norms, the photo rows' squared norms and the aligned distances; the pair pass its column of row sums. -/
theorem W4_loss
    (h2 : ∀ (V : (c : Dev nD) → (b : Ref sig .tc) → Buf (Elt Ideal) ((c : Thread nD τ).loc b)) (c : Dev nD),
      (dat0 (F := Ideal) V c).arrAt 2 cfg0.N = fun y => Cert.Triplet.ssq (toMat (V c main_arg0)) (y 0))
    (h3 : ∀ (V : (c : Dev nD) → (b : Ref sig .tc) → Buf (Elt Ideal) ((c : Thread nD τ).loc b)) (c : Dev nD),
      (dat0 (F := Ideal) V c).arrAt 3 cfg0.N = fun y => Cert.Triplet.psq (toMat (V c main_arg1)) (y 0))
    (h4 : ∀ (V : (c : Dev nD) → (b : Ref sig .tc) → Buf (Elt Ideal) ((c : Thread nD τ).loc b)) (c : Dev nD),
      (dat0 (F := Ideal) V c).arrAt 4 cfg0.N
        = fun y => Cert.Triplet.posd (toMat (V c main_arg0)) (toMat (V c main_arg1)) (y 0))
    (h5 : ∀ (V : (c : Dev nD) → (b : Ref sig .tc) → Buf (Elt Ideal) ((c : Thread nD τ).loc b)) (c : Dev nD),
      (dat1 (F := Ideal) V c).arrAt 5 cfg1.N
        = Cert.Triplet.pairRow (V c main_v4) (V c main_v3) (V c main_v0_1) (V c main_v1) (V c main_v2))
    (c : Dev nD) :
    W4 m c (Proc.devRef .tc main_v6)
      = fun _ => Cert.Triplet.loss (toMat (m ((c : Thread nD τ).loc main_arg0))) (toMat (m ((c : Thread nD τ).loc main_arg1))) := by
  -- the three small arrays the pair pass reads, entry by entry
  have hpq : ∀ i : Fin 4096, (V2 m c main_v0_1 : (⟨2, ![4096, 1]⟩ : Shape).Idx → EReal) (ix2 i 0)
      = psq (toMat (m ((c : Thread nD τ).loc main_arg1))) i := fun i => by
    rw [V2_v0_1]; exact congrFun ((W1_arr m c 3).trans (h3 (V0 m) c)) (ix2 i 0)
  have hsq : ∀ j : Fin 4096, (V2 m c main_v1 : (⟨2, ![1, 4096]⟩ : Shape).Idx → EReal) (ix2 0 j)
      = ssq (toMat (m ((c : Thread nD τ).loc main_arg0))) j := fun j =>
    (V2_v1 m c j).trans (congrFun ((W1_arr m c 2).trans (h2 (V0 m) c)) (ix2 j 0))
  have hpd : ∀ j : Fin 4096, (V2 m c main_v2 : (⟨2, ![1, 4096]⟩ : Shape).Idx → EReal) (ix2 0 j)
      = posd (toMat (m ((c : Thread nD τ).loc main_arg0))) (toMat (m ((c : Thread nD τ).loc main_arg1))) j := fun j =>
    (V2_v2 m c j).trans (congrFun ((W1_arr m c 4).trans (h4 (V0 m) c)) (ix2 j 0))
  -- the column of row sums the pair pass leaves
  have e5 : (W3 m c (Proc.devRef .tc main_v5) : (⟨2, ![4096, 1]⟩ : Shape).Idx → EReal)
      = pairRow (m ((c : Thread nD τ).loc main_arg1)) (m ((c : Thread nD τ).loc main_arg0))
          (V2 m c main_v0_1) (V2 m c main_v1) (V2 m c main_v2) := by
    rw [← V2_v4 m c, ← V2_v3 m c]; exact (W3_arr m c 5).trans (h5 (V2 m) c)
  show StableHlo.after hostOps2 (W3 m c) (Proc.devRef .tc main_v6) = _
  after_results
  rw [e5, sum_col]
  funext _
  exact Finset.sum_congr rfl fun i _ => pairRow_hinge _ _ _ _ _ hpq hsq hpd i

end Cert.KernelIdeal.Tri

end
-- ==== Proof.RefValue.lean ====
/-
  The reference program computes the triplet loss of its two arguments.

  Every intermediate array of the reference is read at one index and identified with the matching piece of the
  specification: the row sums of squares are the squared norms, the row sum of the squared differences under the
  square root is the distance of an aligned pair, the contraction over the 512 columns is the Gram entry, and the
  broadcasts only copy a row quantity along the other axis.  The two index grids agree exactly on the diagonal, so
  the 0/1 factor made from their comparison is 0 there and 1 elsewhere; multiplying by it zeroes the diagonal term
  (t · 0 = 0 holds for every extended real t, infinite ones included) and keeps every other term (t · 1 = t).
  The final sum over all index pairs is the double sum over rows and columns.
-/
import proofs.«115998_j11227044511928_1_alg».proof.Proof.Gen.ReferenceIdeal.Run
import proofs.«115998_j11227044511928_1_alg».proof.Proof.Gen.ReferenceIdeal.Read
import proofs.«115998_j11227044511928_1_alg».proof.Proof.TripletSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index maps of the row reductions, the contraction and the broadcasts, by coordinates -/

theorem idx_v2_eq (j : Fin 4096) (k : Fin 512) : idx_main_v2 (ix1 j) k = ix2 j k :=
  funext fun a => Fin.ext (by match a with | ⟨0, _⟩ => rfl | ⟨1, _⟩ => rfl)
theorem idx_v5_eq (j : Fin 4096) (k : Fin 512) : idx_main_v5 (ix1 j) k = ix2 j k :=
  funext fun a => Fin.ext (by match a with | ⟨0, _⟩ => rfl | ⟨1, _⟩ => rfl)
theorem idx_v7_eq (j : Fin 4096) (k : Fin 512) : idx_main_v7 (ix1 j) k = ix2 j k :=
  funext fun a => Fin.ext (by match a with | ⟨0, _⟩ => rfl | ⟨1, _⟩ => rfl)
theorem lidx_v8_eq (i j : Fin 4096) (k : Fin 512) : lidx_main_v8 (ix2 i j) k = ix2 i k :=
  funext fun a => Fin.ext (by match a with | ⟨0, _⟩ => rfl | ⟨1, _⟩ => rfl)
theorem ridx_v8_eq (i j : Fin 4096) (k : Fin 512) : ridx_main_v8 (ix2 i j) k = ix2 j k :=
  funext fun a => Fin.ext (by match a with | ⟨0, _⟩ => rfl | ⟨1, _⟩ => rfl)
/-- The column of row quantities spread along axis 1 is read at the row. -/
theorem idx_v9_v11_eq (i j : Fin 4096) : idx_main_v9 (idx_main_v11 (ix2 i j)) = ix1 i :=
  funext fun a => Fin.ext (by match a with | ⟨0, _⟩ => rfl)
/-- The row of column quantities spread along axis 0 is read at the column. -/
theorem idx_v10_v12_eq (i j : Fin 4096) : idx_main_v10 (idx_main_v12 (ix2 i j)) = ix1 j :=
  funext fun a => Fin.ext (by match a with | ⟨0, _⟩ => rfl)
theorem idx_v20_v21_eq (i j : Fin 4096) : idx_main_v20 (idx_main_v21 (ix2 i j)) = ix1 j :=
  funext fun a => Fin.ext (by match a with | ⟨0, _⟩ => rfl)

/-! ## The row quantities -/

/-- The sum over the columns of the squared difference of the two arrays' rows j. -/
theorem sqdiff_at (a0 a1 : FVec Ideal S4096x512 .f32) (j : Fin 4096) :
    val_main_v2 (F := Ideal) a0 a1 (ix1 j)
      = ∑ d : Fin 512, (a0 (ix2 j d) - a1 (ix2 j d)) * (a0 (ix2 j d) - a1 (ix2 j d)) := by
  rw [val_main_v2_apply, val_main_cst_apply, Ideal.ofBits_def, Ideal.ofBits_zero_f32, zero_add]
  refine Finset.sum_congr rfl fun d _ => ?_
  rw [idx_v2_eq]
  rfl

/-- Its square root is the distance of the aligned pair j. -/
theorem posd_at (a0 a1 : FVec Ideal S4096x512 .f32) (j : Fin 4096) :
    val_main_v3 (F := Ideal) a0 a1 (ix1 j) = Triplet.posd (Triplet.toMat a0) (Triplet.toMat a1) j := by
  rw [val_main_v3_apply, Ideal.hostUnary_sqrt_def, sqdiff_at]
  rfl

/-- The squared norm of row j of the first argument. -/
theorem ssq_at (a0 : FVec Ideal S4096x512 .f32) (j : Fin 4096) :
    val_main_v5 (F := Ideal) a0 (ix1 j) = Triplet.ssq (Triplet.toMat a0) j := by
  rw [val_main_v5_apply, val_main_cst_0_apply, Ideal.ofBits_def, Ideal.ofBits_zero_f32, zero_add]
  unfold Triplet.ssq
  refine Finset.sum_congr rfl fun d _ => ?_
  rw [idx_v5_eq]
  rfl

/-- The squared norm of row i of the second argument. -/
theorem psq_at (a1 : FVec Ideal S4096x512 .f32) (i : Fin 4096) :
    val_main_v7 (F := Ideal) a1 (ix1 i) = Triplet.psq (Triplet.toMat a1) i := by
  rw [val_main_v7_apply, val_main_cst_1_apply, Ideal.ofBits_def, Ideal.ofBits_zero_f32, zero_add]
  unfold Triplet.psq
  refine Finset.sum_congr rfl fun d _ => ?_
  rw [idx_v7_eq]
  rfl

/-- The contraction over the columns is the inner product of row i of the second argument with row j of the first. -/
theorem cross_at (a0 a1 : FVec Ideal S4096x512 .f32) (i j : Fin 4096) :
    val_main_v8 (F := Ideal) a0 a1 (ix2 i j) = Triplet.cross (Triplet.toMat a0) (Triplet.toMat a1) i j := by
  rw [val_main_v8_apply]
  unfold Triplet.cross
  refine Finset.sum_congr rfl fun d _ => ?_
  rw [lidx_v8_eq, ridx_v8_eq]

/-! ## The pair quantities -/

/-- The polarised squared distance, clamped at zero, under the root: the distance of row i of the second argument to
    row j of the first. The factor 2 stays the word the program prints. -/
theorem negd_at (a0 a1 : FVec Ideal S4096x512 .f32) (i j : Fin 4096) :
    val_main_v19 (F := Ideal) a0 a1 (ix2 i j) = Triplet.negd (Triplet.toMat a0) (Triplet.toMat a1) i j := by
  rw [val_main_v19_apply, val_main_v18_apply, val_main_v16_apply, val_main_v13_apply, val_main_v11_apply,
    val_main_v9_apply, idx_v9_v11_eq, psq_at, val_main_v12_apply, val_main_v10_apply, idx_v10_v12_eq, ssq_at,
    val_main_v15_apply, val_main_v14_apply, val_main_cst_2_apply, cross_at, val_main_v17_apply, val_main_cst_3_apply]
  simp only [Ideal.hostUnary_sqrt_def, Ideal.maximumf_def, Ideal.subf_def, Ideal.addf_def, Ideal.mulf_def,
    Ideal.ofBits_def, Ideal.ofBits_zero_f32]
  rfl

/-- The triplet term before the diagonal is removed: aligned distance minus pair distance plus the margin word. -/
theorem trip_at (a0 a1 : FVec Ideal S4096x512 .f32) (i j : Fin 4096) :
    val_main_v24 (F := Ideal) a0 a1 (ix2 i j) = Triplet.trip (Triplet.toMat a0) (Triplet.toMat a1) i j := by
  rw [val_main_v24_apply, val_main_v22_apply, val_main_v21_apply, val_main_v20_apply, idx_v20_v21_eq, posd_at,
    negd_at, val_main_v23_apply, val_main_cst_4_apply]
  rfl

/-! ## The diagonal -/

/-- Row and column numbers below 4096 are equal as 32-bit words exactly when they are equal. -/
theorem diag_bit (i j : Fin 4096) :
    IntOp.cmpi .eq (IntOp.addi (BitVec.ofNat 32 i.val) 0#32) (BitVec.ofNat 32 j.val) = if i = j then 1#1 else 0#1 := by
  unfold IntOp.cmpi IntOp.addi
  by_cases h : i = j
  · subst h; simp
  · have hne : BitVec.ofNat 32 i.val ≠ BitVec.ofNat 32 j.val := by
      intro e
      have e' := congrArg BitVec.toNat e
      simp only [BitVec.toNat_ofNat] at e'
      have hi := i.isLt
      have hj := j.isLt
      rw [Nat.mod_eq_of_lt (by omega), Nat.mod_eq_of_lt (by omega)] at e'
      exact h (Fin.ext e')
    have hb : (BitVec.ofNat 32 i.val == BitVec.ofNat 32 j.val) = false := beq_eq_false_iff_ne.mpr hne
    simp [h, hb]

/-- On the extended reals the finite number 1 cancels against itself. -/
theorem one_sub_one : (1 : EReal) - 1 = 0 := by
  rw [← EReal.coe_one, ← EReal.coe_sub, sub_self, EReal.coe_zero]

/-- One minus the comparison bit read as a number: 0 on the diagonal, 1 off it. -/
theorem mask_at (i j : Fin 4096) :
    val_main_v32 (F := Ideal) (ix2 i j) = if i = j then (0 : EReal) else 1 := by
  rw [val_main_v32_apply, val_main_v31_apply, val_main_cst_5_apply, val_main_v30_apply, val_main_v29_apply,
    val_main_v28_apply, val_main_v25_apply, val_main_v27_apply, val_main_c_apply, val_main_v26_apply]
  show Ideal.ofBits .f32 0x3F800000#32
      - (((IntOp.cmpi .eq (IntOp.addi (BitVec.ofNat 32 i.val) 0#32) (BitVec.ofNat 32 j.val)).toNat : ℝ) : EReal) = _
  rw [diag_bit, show Ideal.ofBits .f32 0x3F800000#32 = 1 from IdealRules.sign_bit.ideal_onePat .f32]
  by_cases h : i = j
  · rw [if_pos h, if_pos h]
    show (1 : EReal) - (((1 : ℕ) : ℝ) : EReal) = 0
    rw [Nat.cast_one, EReal.coe_one, one_sub_one]
  · rw [if_neg h, if_neg h]
    show (1 : EReal) - (((0 : ℕ) : ℝ) : EReal) = 1
    rw [Nat.cast_zero, EReal.coe_zero, sub_zero]

/-- The hinged term: the product with the 0/1 factor is 0 on the diagonal and the triplet term off it. -/
theorem hinge_at (a0 a1 : FVec Ideal S4096x512 .f32) (i j : Fin 4096) :
    val_main_v34 (F := Ideal) a0 a1 (ix2 i j) = Triplet.hinge (Triplet.toMat a0) (Triplet.toMat a1) i j := by
  rw [val_main_v34_apply, val_main_v33_apply, trip_at, mask_at, val_main_call0_v0_apply, val_main_call0_cst_apply,
    Ideal.ofBits_def, Ideal.ofBits_zero_f32, Ideal.maximumf_def, Ideal.mulf_def]
  unfold Triplet.hinge
  by_cases h : i = j
  · rw [if_pos h, if_pos h, mul_zero]
  · rw [if_neg h, if_neg h, mul_one]

/-! ## The loss -/

/-- The reference's result, as a function of its two arguments, is the loss at its one index. -/
theorem ref_term_eq (a0 a1 : FVec Ideal S4096x512 .f32) :
    val_main_v35 (F := Ideal) a0 a1 = fun _ => Triplet.loss (Triplet.toMat a0) (Triplet.toMat a1) := by
  funext q
  rw [val_main_v35_apply, val_main_cst_6_apply, Ideal.ofBits_def, Ideal.ofBits_zero_f32, zero_add, sum_idx2]
  unfold Triplet.loss
  exact Finset.sum_congr rfl fun i _ => Finset.sum_congr rfl fun j _ => hinge_at a0 a1 i j

/-- Every weakly fair execution of the reference ends with its result holding the loss of the two arguments'
    launch contents, the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread _ _).loc Cert.ReferenceIdeal.main_v35)
          = (fun _ => Cert.Triplet.loss (Cert.Triplet.toMat (m ((c.tc : Thread _ _).loc Cert.ReferenceIdeal.main_arg0)))
              (Cert.Triplet.toMat (m ((c.tc : Thread _ _).loc Cert.ReferenceIdeal.main_arg1))))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run _ _ _).mono (fun _ h c => ⟨(h c).1.trans ((val_main_v35_eq _ _).trans (ref_term_eq _ _)), (h c).2⟩)
    (Cert.ReferenceIdeal.Value.run (F := Ideal) m ρ)

end Cert.ReferenceIdeal.RefValue

end
-- ==== Proof.lean ====
/-
  The triplet-loss kernel against its jnp reference, over the extended reals.

  From 4096 sketch rows s_j and 4096 photo rows p_i of 512 entries both programs compute
      loss = Σ_i Σ_j max(t i j, 0),
      t i j = 0 on the diagonal and (‖s_j − p_j‖ − √max((‖p_i‖² + ‖s_j‖²) − 2·⟨p_i, s_j⟩, 0)) + margin off it
  (Proof/TripletSpec.lean). The kernel does it in two passes: a row pass over blocks of 1024 rows (the squared
  norms and the aligned distances), then a pair pass over an 8 × 8 grid of 512 × 512 tiles that keeps a column
  of row sums between the column tiles of a row tile, and a closing sum of that column. The reference forms
  the whole 4096 × 4096 matrix, multiplies it by one minus the identity, hinges and sums.

  Why the two agree, term by term: a change of float format is the identity on the extended reals; the Gram
  entry is the same sum of products whether a tile or the whole matrix is contracted; t·0 = 0 and t·1 = t, so the
  reference's mask product is the kernel's select; a sum over the pairs is the iterated sum, a sum over 4096
  columns is the sum over 8 tiles of 512, and the accumulator started at zero adds the tiles in order. None of
  these steps uses that the inputs are finite.

  The frames: each region's body runs from what the pipeline hands it to what the proof data say it leaves
  (the row pass stores three whole blocks; the pair pass carries its scratch column from point to point, reset
  at the first column tile and written out at the last), and the program's run composes the two regions with
  the host stretches between and after them, the final memory named buffer by buffer. The same text serves the
  word-level program and its idealization: nothing in it depends on what a float is.
-/
import proofs.«115998_j11227044511928_1_alg».proof.Defs
import proofs.«115998_j11227044511928_1_alg».proof.Proof.Gen.Kernel
import proofs.«115998_j11227044511928_1_alg».proof.Proof.Gen.KernelIdeal
import proofs.«115998_j11227044511928_1_alg».proof.Proof.Gen.ReferenceIdeal
import proofs.«115998_j11227044511928_1_alg».proof.Proof.Gen.Pre_finite_inputs
import proofs.«115998_j11227044511928_1_alg».proof.Proof.KBody0
import proofs.«115998_j11227044511928_1_alg».proof.Proof.KBody1
import proofs.«115998_j11227044511928_1_alg».proof.Proof.KRun
import proofs.«115998_j11227044511928_1_alg».proof.Proof.KIBody0
import proofs.«115998_j11227044511928_1_alg».proof.Proof.KIBody1
import proofs.«115998_j11227044511928_1_alg».proof.Proof.KIRun
import proofs.«115998_j11227044511928_1_alg».proof.Proof.KIValue0
import proofs.«115998_j11227044511928_1_alg».proof.Proof.KITile
import proofs.«115998_j11227044511928_1_alg».proof.Proof.KIValue1
import proofs.«115998_j11227044511928_1_alg».proof.Proof.KIValue
import proofs.«115998_j11227044511928_1_alg».proof.Proof.RefValue
import Idealize.ShloMosaic.Adequacy
import Idealize.ShloMosaic.Init

set_option maxRecDepth 16384

noncomputable section

namespace Cert.Proof.Claims

open Idealize.ShloMosaic Idealize.ShloMosaic.TcCoe Idealize.SL.Sem

/-! ## The word-level program's run -/

section Word
open Cert.Kernel Cert.Kernel.Gen Cert.Kernel.Tri

/-- Every execution of the word-level program ends with each unscoped buffer at the contents the fold names. -/
theorem k_run (m : (ℓ : Loc nD τ sig) → Buf (Elt Bits) ℓ) (ρ : Dev nD → PrngReg) :
    θ_run (defs (F := Bits)) (onTc (τ := τ) (main (F := Bits))) ⟨m, fun _ => 0, ρ⟩
      (fun r => ∀ c : Dev nD, ∀ b ∈ Pipeline.ucRefs τ sig, r.2.mem ((c : Thread nD τ).1, b) = W4 m c b) :=
  run_all m ρ (fun c => body_obligation0 (V0 m) c) (fun c => body_obligation1 (V2 m) c)
    (fun c => hin1 (V2 m) c) (fun c => hout1 (V2 m) c)

/-- No host stretch writes an argument and no region writes one back: both end as launched. -/
theorem frame_p : Cert.frame_Kernel := fun m ρ _ =>
  (θ_run (defs (F := Bits)) _ _).mono (fun r h c =>
    ⟨(h c _ (mem_uc main_arg0 (by decide))).trans (W4_main_arg0 m c),
     (h c _ (mem_uc main_arg1 (by decide))).trans (W4_main_arg1 m c)⟩) (k_run m ρ)

end Word

/-! ## The idealized program's run, the reference's, and their common value -/

section Exact
open Cert.KernelIdeal Cert.KernelIdeal.Gen Cert.KernelIdeal.Tri

/-- The same run, read over the extended reals. -/
theorem ki_run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD, ∀ b ∈ Pipeline.ucRefs τ sig, r.2.mem ((c : Thread nD τ).1, b) = W4 m c b) :=
  run_all m ρ (fun c => body_obligation0 (V0 m) c) (fun c => body_obligation1 (V2 m) c)
    (fun c => hin1 (V2 m) c) (fun c => hout1 (V2 m) c)

theorem frame_pi : Cert.frame_KernelIdeal := fun m ρ _ =>
  (θ_run (defs (F := Ideal)) _ _).mono (fun r h c =>
    ⟨(h c _ (mem_uc main_arg0 (by decide))).trans (W4_main_arg0 m c),
     (h c _ (mem_uc main_arg1 (by decide))).trans (W4_main_arg1 m c)⟩) (ki_run m ρ)

/-- The reference is host operations only: its run with the result dropped. -/
theorem frame_ri : Cert.frame_ReferenceIdeal := fun m ρ _ =>
  (θ_run (Cert.ReferenceIdeal.defs (F := Ideal)) _ _).mono (fun _ h c => (h c).2)
    (Cert.ReferenceIdeal.RefValue.ref_run m ρ)

/-- Both programs end with the loss of the two argument arrays in their result buffer: the kernel's closing sum of
    the pair pass's column is Σ_i Σ_j of the hinged terms, and so is the reference's sum over all pairs. -/
theorem algebraic : Cert.algebraic_KernelIdeal_ReferenceIdeal := by
  intro m ρ m' ρ' _ hagree
  refine ⟨fun c => (fun _ => Cert.Triplet.loss (Cert.Triplet.toMat (m ((c.tc : Thread nD τ).loc main_arg0)))
    (Cert.Triplet.toMat (m ((c.tc : Thread nD τ).loc main_arg1)))), ?_, ?_⟩
  · refine (θ_run (defs (F := Ideal)) _ _).mono (fun r h c => ⟨?_, ?_, ?_⟩) (ki_run m ρ)
    · exact (h c _ (mem_uc main_v6 (by decide))).trans
        (W4_loss m arr0_2 arr0_3 arr0_4 (fun V c => arr1_5 V pay2_apply pay1_apply pay3_apply c) c)
    · exact (h c _ (mem_uc main_arg0 (by decide))).trans (W4_main_arg0 m c)
    · exact (h c _ (mem_uc main_arg1 (by decide))).trans (W4_main_arg1 m c)
  · refine (θ_run (Cert.ReferenceIdeal.defs (F := Ideal)) _ _).mono (fun r h c => ⟨(h c).1.trans ?_, (h c).2⟩)
      (Cert.ReferenceIdeal.RefValue.ref_run m' ρ')
    rw [(hagree c).1, (hagree c).2]
    rfl

end Exact

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, trivial, Claims.algebraic⟩

end Cert.Proof

end
